-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S16x3 : Shape := ⟨2, ![16, 3]⟩
abbrev S100000x1 : Shape := ⟨2, ![100000, 1]⟩
abbrev S100000 : Shape := ⟨1, ![100000]⟩
abbrev S2x6400000 : Shape := ⟨2, ![2, 6400000]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S16x3 : S_.BroadcastsInDim S16x3 (![] : Fin 0 → Fin S16x3.rank)
  reducesTo_S16x3_S_d0_1 : S16x3.ReducesTo [0, 1] S_
  bcast_S_S100000x1 : S_.BroadcastsInDim S100000x1 (![] : Fin 0 → Fin S100000x1.rank)
  reducesTo_S100000x1_S_d0_1 : S100000x1.ReducesTo [0, 1] S_
  bcast_S_S2x6400000 : S_.BroadcastsInDim S2x6400000 (![] : Fin 0 → Fin S2x6400000.rank)
  reducesTo_S2x6400000_S_d0_1 : S2x6400000.ReducesTo [0, 1] S_

variable [Facts]

def fn_part1 {F : FTy → Type} [FloatOps F] (main_arg5 : IVec S2x6400000 32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_c_6 : IVec S_ 32 := constantI S_ 32 0#32
  let main_v19 : IVec S2x6400000 32 := broadcastInDim S2x6400000 ![] bcast_S_S2x6400000 main_c_6
  let main_v20 : IVec S2x6400000 1 := cmpi .sge main_arg5 main_v19
  let main_c_7 : IVec S_ 32 := constantI S_ 32 100000#32
  let main_v21 : IVec S2x6400000 32 := broadcastInDim S2x6400000 ![] bcast_S_S2x6400000 main_c_7
  let main_v22 : IVec S2x6400000 1 := cmpi .slt main_arg5 main_v21
  let main_v23 : IVec S2x6400000 1 := andi main_v20 main_v22
  let main_c_8 : IVec S_ 1 := constantI S_ 1 1#1
  let main_v24 : IVec S_ 1 := (fun x v => Host.reduce IntOp.andi x v reducesTo_S2x6400000_S_d0_1 h_S_) main_v23 main_c_8
  let main_v25 : IVec S_ 1 := andi main_v18 main_v24
  main_v25

def fn {F : FTy → Type} [FloatOps F] (main_arg0 : FVec F S100000x2 .f32) (main_arg1 : FVec F S100000x2 .f32) (main_arg2 : FVec F S16x3 .f32) (main_arg3 : FVec F S100000x1 .f32) (main_arg4 : IVec S100000 32) (main_arg5 : IVec S2x6400000 32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S16x3 .f32 := Host.absf main_arg2
  let main_cst_2 : FVec F S_ .f32 := constant S_ .f32 0x7F800000#32
  let main_v10 : FVec F S16x3 .f32 := broadcastInDim S16x3 ![] bcast_S_S16x3 main_cst_2
  let main_v11 : IVec S16x3 1 := cmpf .olt main_v9 main_v10
  let main_c_3 : IVec S_ 1 := constantI S_ 1 1#1
  let main_v12 : IVec S_ 1 := (fun x v => Host.reduce IntOp.andi x v reducesTo_S16x3_S_d0_1 h_S_) main_v11 main_c_3
  let main_v13 : IVec S_ 1 := andi main_v8 main_v12
  let main_v14 : FVec F S100000x1 .f32 := Host.absf main_arg3
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg5 main_v13 main_v16
-- ==== Kernel.lean ====
abbrev S100000x2 : Shape := ⟨2, ![100000, 2]⟩
abbrev S16x3 : Shape := ⟨2, ![16, 3]⟩
abbrev S100000x1 : Shape := ⟨2, ![100000, 1]⟩
abbrev S100000 : Shape := ⟨1, ![100000]⟩
abbrev S2x6400000 : Shape := ⟨2, ![2, 6400000]⟩
abbrev S1x6400000 : Shape := ⟨2, ![1, 6400000]⟩
abbrev S6400000 : Shape := ⟨1, ![6400000]⟩
abbrev S_ : Shape := ⟨0, ![]⟩
abbrev S100000x3 : Shape := ⟨2, ![100000, 3]⟩
abbrev S100000x5 : Shape := ⟨2, ![100000, 5]⟩
abbrev S5x100000 : Shape := ⟨2, ![5, 100000]⟩
abbrev S100000x7 : Shape := ⟨2, ![100000, 7]⟩
abbrev S7x100000 : Shape := ⟨2, ![7, 100000]⟩
abbrev S6422528 : Shape := ⟨1, ![6422528]⟩
abbrev S6422528x1 : Shape := ⟨2, ![6422528, 1]⟩
abbrev S1 : Shape := ⟨1, ![1]⟩
abbrev S1x1 : Shape := ⟨2, ![1, 1]⟩
abbrev S5x6422528 : Shape := ⟨2, ![5, 6422528]⟩
abbrev S7x6422528 : Shape := ⟨2, ![7, 6422528]⟩
abbrev S2x6422528 : Shape := ⟨2, ![2, 6422528]⟩
abbrev S5x131072 : Shape := ⟨2, ![5, 131072]⟩
abbrev S7x131072 : Shape := ⟨2, ![7, 131072]⟩
abbrev S2x131072 : Shape := ⟨2, ![2, 131072]⟩
abbrev S1x131072 : Shape := ⟨2, ![1, 131072]⟩
abbrev S3x131072 : Shape := ⟨2, ![3, 131072]⟩
abbrev S131072 : Shape := ⟨1, ![131072]⟩
abbrev S1x6422528 : Shape := ⟨2, ![1, 6422528]⟩
abbrev S100001 : Shape := ⟨1, ![100001]⟩

abbrev nBuf : Space → Nat
  | .hbm => 112
  | .vmem => 6
  | .smem => 0
  | _ => 0

abbrev bufTy : (tb : Table) → Fin (tcTables nBuf tb) → BufTy
  | .hbm, ⟨0, _⟩ => ⟨S100000x2, .f32⟩
  | .hbm, ⟨1, _⟩ => ⟨S100000x2, .f32⟩
  | .hbm, ⟨2, _⟩ => ⟨S16x3, .f32⟩
  | .hbm, ⟨3, _⟩ => ⟨S100000x1, .f32⟩
  | .hbm, ⟨4, _⟩ => ⟨S100000, .i32⟩
  | .hbm, ⟨5, _⟩ => ⟨S2x6400000, .i32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S_, .i32⟩
  | .hbm, ⟨11, _⟩ => ⟨S100000, .i32⟩
  | .hbm, ⟨12, _⟩ => ⟨S100000, .i1⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S100000x1, .i32⟩
  | .hbm, ⟨18, _⟩ => ⟨S100000x3, .f32⟩
  | .hbm, ⟨19, _⟩ => ⟨S100000x5, .f32⟩
  | .hbm, ⟨20, _⟩ => ⟨S5x100000, .f32⟩
  | .hbm, ⟨21, _⟩ => ⟨S100000x7, .f32⟩
  | .hbm, ⟨22, _⟩ => ⟨S7x100000, .f32⟩
  | .hbm, ⟨23, _⟩ => ⟨S_, .i32⟩
  | .hbm, ⟨24, _⟩ => ⟨S_, .i32⟩
  | .hbm, ⟨25, _⟩ => ⟨S6422528, .i32⟩
  | .hbm, ⟨26, _⟩ => ⟨S_, .i32⟩
  | .hbm, ⟨27, _⟩ => ⟨S_, .i32⟩
  | .hbm, ⟨28, _⟩ => ⟨S6422528, .i32⟩
  | .hbm, ⟨29, _⟩ => ⟨S_, .i32⟩
  | .hbm, ⟨30, _⟩ => ⟨S_, .i32⟩
  | .hbm, ⟨31, _⟩ => ⟨S6422528, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S6422528, .i32⟩
  | .hbm, ⟨36, _⟩ => ⟨S6422528, .i32⟩
  | .hbm, ⟨37, _⟩ => ⟨S_, .i32⟩
  | .hbm, ⟨38, _⟩ => ⟨S6422528, .i32⟩
  | .hbm, ⟨39, _⟩ => ⟨S6422528, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S6422528, .i32⟩
  | .hbm, ⟨44, _⟩ => ⟨S6422528, .i32⟩
  | .hbm, ⟨45, _⟩ => ⟨S_, .i32⟩
  | .hbm, ⟨46, _⟩ => ⟨S6422528, .i32⟩
  | .hbm, ⟨47, _⟩ => ⟨S6422528, .i32⟩
  | .hbm, ⟨48, _⟩ => ⟨S_, .i32⟩
  | .hbm, ⟨49, _⟩ => ⟨S6422528, .i32⟩
  | .hbm, ⟨50, _⟩ => ⟨S6422528, .i1⟩
  | .hbm, ⟨51, _⟩ => ⟨S_, .i32⟩
  | .hbm, ⟨52, _⟩ => ⟨S6422528, .i32⟩
  | .hbm, ⟨53, _⟩ => ⟨S6422528, .i32⟩
  | .hbm, ⟨54, _⟩ => ⟨S6422528, .i32⟩
  | .hbm, ⟨55, _⟩ => ⟨S6422528x1, .i32⟩
  | .hbm, ⟨56, _⟩ => ⟨S1, .i32⟩
  | .hbm, ⟨57, _⟩ => ⟨S_, .i32⟩
  | .hbm, ⟨58, _⟩ => ⟨S6422528x1, .i32⟩
  | .hbm, ⟨59, _⟩ => ⟨S6422528x1, .i1⟩
  | .hbm, ⟨60, _⟩ => ⟨S1x1, .i32⟩
  | .hbm, ⟨61, _⟩ => ⟨S6422528x1, .i32⟩
  | .hbm, ⟨62, _⟩ => ⟨S6422528x1, .i1⟩
  | .hbm, ⟨63, _⟩ => ⟨S6422528x1, .i1⟩
  | .hbm, ⟨64, _⟩ => ⟨S_, .i1⟩
  | .hbm, ⟨65, _⟩ => ⟨S6422528, .i1⟩
  | .hbm, ⟨66, _⟩ => ⟨S5x6422528, .f32⟩
  | .hbm, ⟨67, _⟩ => ⟨S5x6422528, .i1⟩
  | .hbm, ⟨68, _⟩ => ⟨S_, .f32⟩
  | .hbm, ⟨69, _⟩ => ⟨S5x6422528, .f32⟩
  | .hbm, ⟨70, _⟩ => ⟨S5x6422528, .f32⟩
  | .hbm, ⟨71, _⟩ => ⟨S_, .i32⟩
  | .hbm, ⟨72, _⟩ => ⟨S6422528, .i32⟩
  | .hbm, ⟨73, _⟩ => ⟨S6422528, .i1⟩
  | .hbm, ⟨74, _⟩ => ⟨S_, .i32⟩
  | .hbm, ⟨75, _⟩ => ⟨S6422528, .i32⟩
  | .hbm, ⟨76, _⟩ => ⟨S6422528, .i32⟩
  | .hbm, ⟨77, _⟩ => ⟨S6422528, .i32⟩
  | .hbm, ⟨78, _⟩ => ⟨S6422528x1, .i32⟩
  | .hbm, ⟨79, _⟩ => ⟨S1, .i32⟩
  | .hbm, ⟨80, _⟩ => ⟨S_, .i32⟩
  | .hbm, ⟨81, _⟩ => ⟨S6422528x1, .i32⟩
  | .hbm, ⟨82, _⟩ => ⟨S6422528x1, .i1⟩
  | .hbm, ⟨83, _⟩ => ⟨S1x1, .i32⟩
  | .hbm, ⟨84, _⟩ => ⟨S6422528x1, .i32⟩
  | .hbm, ⟨85, _⟩ => ⟨S6422528x1, .i1⟩
  | .hbm, ⟨86, _⟩ => ⟨S6422528x1, .i1⟩
  | .hbm, ⟨87, _⟩ => ⟨S_, .i1⟩
  | .hbm, ⟨88, _⟩ => ⟨S6422528, .i1⟩
  | .hbm, ⟨89, _⟩ => ⟨S7x6422528, .f32⟩
  | .hbm, ⟨90, _⟩ => ⟨S7x6422528, .i1⟩
  | .hbm, ⟨91, _⟩ => ⟨S_, .f32⟩
  | .hbm, ⟨92, _⟩ => ⟨S7x6422528, .f32⟩
  | .hbm, ⟨93, _⟩ => ⟨S7x6422528, .f32⟩
  | .hbm, ⟨94, _⟩ => ⟨S2x6422528, .f32⟩
  | .hbm, ⟨95, _⟩ => ⟨S1x6422528, .f32⟩
  | .hbm, ⟨96, _⟩ => ⟨S6422528, .f32⟩
  | .hbm, ⟨97, _⟩ => ⟨S_, .f32⟩
  | .hbm, ⟨98, _⟩ => ⟨S100001, .f32⟩
  | .hbm, ⟨99, _⟩ => ⟨S6422528x1, .i32⟩
  | .hbm, ⟨100, _⟩ => ⟨S100001, .f32⟩
  | .hbm, ⟨101, _⟩ => ⟨S100000, .f32⟩
  | .hbm, ⟨102, _⟩ => ⟨S1x6422528, .f32⟩
  | .hbm, ⟨103, _⟩ => ⟨S6422528, .f32⟩
  | .hbm, ⟨104, _⟩ => ⟨S_, .f32⟩
  | .hbm, ⟨105, _⟩ => ⟨S100001, .f32⟩
  | .hbm, ⟨106, _⟩ => ⟨S6422528x1, .i32⟩
  | .hbm, ⟨107, _⟩ => ⟨S100001, .f32⟩
  | .hbm, ⟨108, _⟩ => ⟨S100000, .f32⟩
  | .hbm, ⟨109, _⟩ => ⟨S100000x1, .f32⟩
  | .hbm, ⟨110, _⟩ => ⟨S100000x1, .f32⟩
  | .hbm, ⟨111, _⟩ => ⟨S100000x2, .f32⟩
  | .local _ .vmem, ⟨0, _⟩ => ⟨S5x131072, .f32⟩
  | .local _ .vmem, ⟨1, _⟩ => ⟨S5x131072, .f32⟩
  | .local _ .vmem, ⟨2, _⟩ => ⟨S7x131072, .f32⟩
  | .local _ .vmem, ⟨3, _⟩ => ⟨S7x131072, .f32⟩
  | .local _ .vmem, ⟨4, _⟩ => ⟨S2x131072, .f32⟩
  | .local _ .vmem, ⟨5, _⟩ => ⟨S2x131072, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_call0_v0 : Ref sig .tc := ⟨.hbm, 24, rfl⟩
abbrev main_v15 : Ref sig .tc := ⟨.hbm, 25, rfl⟩
abbrev main_c_2 : Ref sig .tc := ⟨.hbm, 26, rfl⟩
abbrev main_call1_v0 : Ref sig .tc := ⟨.hbm, 27, rfl⟩
abbrev main_v16 : Ref sig .tc := ⟨.hbm, 28, rfl⟩
abbrev main_c_3 : Ref sig .tc := ⟨.hbm, 29, rfl⟩
abbrev main_call2_v0 : Ref sig .tc := ⟨.hbm, 30, rfl⟩
abbrev main_v17 : Ref sig .tc := ⟨.hbm, 31, rfl⟩
abbrev main_c_4 : Ref sig .tc := ⟨.hbm, 32, rfl⟩
abbrev main_c_5 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_v18 : Ref sig .tc := ⟨.hbm, 39, rfl⟩
abbrev main_c_6 : Ref sig .tc := ⟨.hbm, 40, rfl⟩
abbrev main_c_7 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_v19 : Ref sig .tc := ⟨.hbm, 47, rfl⟩
abbrev main_call5_c : Ref sig .tc := ⟨.hbm, 48, rfl⟩
abbrev main_call5_v0 : Ref sig .tc := ⟨.hbm, 49, rfl⟩
abbrev main_call5_v1 : Ref sig .tc := ⟨.hbm, 50, rfl⟩
abbrev main_call5_c_0 : Ref sig .tc := ⟨.hbm, 51, rfl⟩
abbrev main_call5_v2 : Ref sig .tc := ⟨.hbm, 52, rfl⟩
abbrev main_call5_v3 : Ref sig .tc := ⟨.hbm, 53, rfl⟩
abbrev main_call5_v4 : Ref sig .tc := ⟨.hbm, 54, rfl⟩
abbrev main_call5_v5 : Ref sig .tc := ⟨.hbm, 55, rfl⟩
abbrev main_call5_c_1 : Ref sig .tc := ⟨.hbm, 56, rfl⟩
abbrev main_call5_c_2 : Ref sig .tc := ⟨.hbm, 57, rfl⟩
abbrev main_call5_v6 : Ref sig .tc := ⟨.hbm, 58, rfl⟩
abbrev main_call5_v7 : Ref sig .tc := ⟨.hbm, 59, rfl⟩
abbrev main_call5_v8 : Ref sig .tc := ⟨.hbm, 60, rfl⟩
abbrev main_call5_v9 : Ref sig .tc := ⟨.hbm, 61, rfl⟩
abbrev main_call5_v10 : Ref sig .tc := ⟨.hbm, 62, rfl⟩
abbrev main_call5_v11 : Ref sig .tc := ⟨.hbm, 63, rfl⟩
abbrev main_call5_c_3 : Ref sig .tc := ⟨.hbm, 64, rfl⟩
abbrev main_call5_v12 : Ref sig .tc := ⟨.hbm, 65, rfl⟩
abbrev main_call5_v13 : Ref sig .tc := ⟨.hbm, 66, rfl⟩
abbrev main_call5_v14 : Ref sig .tc := ⟨.hbm, 67, rfl⟩
abbrev main_call5_cst : Ref sig .tc := ⟨.hbm, 68, rfl⟩
abbrev main_call5_v15 : Ref sig .tc := ⟨.hbm, 69, rfl⟩
abbrev main_v20 : Ref sig .tc := ⟨.hbm, 70, rfl⟩
abbrev main_call6_c : Ref sig .tc := ⟨.hbm, 71, rfl⟩
abbrev main_call6_v0 : Ref sig .tc := ⟨.hbm, 72, rfl⟩
abbrev main_call6_v1 : Ref sig .tc := ⟨.hbm, 73, rfl⟩
abbrev main_call6_c_0 : Ref sig .tc := ⟨.hbm, 74, rfl⟩
abbrev main_call6_v2 : Ref sig .tc := ⟨.hbm, 75, rfl⟩
abbrev main_call6_v3 : Ref sig .tc := ⟨.hbm, 76, rfl⟩
abbrev main_call6_v4 : Ref sig .tc := ⟨.hbm, 77, rfl⟩
abbrev main_call6_v5 : Ref sig .tc := ⟨.hbm, 78, rfl⟩
abbrev main_call6_c_1 : Ref sig .tc := ⟨.hbm, 79, rfl⟩
abbrev main_call6_c_2 : Ref sig .tc := ⟨.hbm, 80, rfl⟩
abbrev main_call6_v6 : Ref sig .tc := ⟨.hbm, 81, rfl⟩
abbrev main_call6_v7 : Ref sig .tc := ⟨.hbm, 82, rfl⟩
abbrev main_call6_v8 : Ref sig .tc := ⟨.hbm, 83, rfl⟩
abbrev main_call6_v9 : Ref sig .tc := ⟨.hbm, 84, rfl⟩
abbrev main_call6_v10 : Ref sig .tc := ⟨.hbm, 85, rfl⟩
abbrev main_call6_v11 : Ref sig .tc := ⟨.hbm, 86, rfl⟩
abbrev main_call6_c_3 : Ref sig .tc := ⟨.hbm, 87, rfl⟩
abbrev main_call6_v12 : Ref sig .tc := ⟨.hbm, 88, rfl⟩
abbrev main_call6_v13 : Ref sig .tc := ⟨.hbm, 89, rfl⟩
abbrev main_call6_v14 : Ref sig .tc := ⟨.hbm, 90, rfl⟩
abbrev main_call6_cst : Ref sig .tc := ⟨.hbm, 91, rfl⟩
abbrev main_call6_v15 : Ref sig .tc := ⟨.hbm, 92, rfl⟩
abbrev main_v21 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_cst : Ref sig .tc := ⟨.hbm, 97, rfl⟩
abbrev main_v25 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_cst_8 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S100000 : S_.BroadcastsInDim S100000 (![] : Fin 0 → Fin S100000.rank)
  bcast_S100000_S100000x1_0 : S100000.BroadcastsInDim S100000x1 (![0] : Fin 1 → Fin S100000x1.rank)
  concatenates_S100000x2_S100000x2_S100000x1_S100000x5_d1 : Shape.Concatenates [S100000x2, S100000x2, S100000x1] S100000x5 1
  transposes_S100000x5_S5x100000_1_0 : S100000x5.Transposes [1, 0] S5x100000
  concatenates_S100000x2_S100000x2_S100000x3_S100000x7_d1 : Shape.Concatenates [S100000x2, S100000x2, S100000x3] S100000x7 1
  transposes_S100000x7_S7x100000_1_0 : S100000x7.Transposes [1, 0] S7x100000
  pads_S6400000_S6422528_0225280 : S6400000.Pads (![0] : Fin 1 → Nat) ![22528] ![0] S6422528
  h_S_ : 0 < S_.numel
  bcast_S_S6422528 : S_.BroadcastsInDim S6422528 (![] : Fin 0 → Fin S6422528.rank)
  bcast_S6422528_S6422528x1_0 : S6422528.BroadcastsInDim S6422528x1 (![0] : Fin 1 → Fin S6422528x1.rank)
  bcast_S_S6422528x1 : S_.BroadcastsInDim S6422528x1 (![] : Fin 0 → Fin S6422528x1.rank)
  bcast_S1_S1x1_1 : S1.BroadcastsInDim S1x1 (![1] : Fin 1 → Fin S1x1.rank)
  bcast_S1x1_S6422528x1_0_1 : S1x1.BroadcastsInDim S6422528x1 (![0, 1] : Fin 2 → Fin S6422528x1.rank)
  reducesTo_S6422528x1_S6422528_d1 : S6422528x1.ReducesTo [1] S6422528
  bcast_S6422528_S5x6422528_1 : S6422528.BroadcastsInDim S5x6422528 (![1] : Fin 1 → Fin S5x6422528.rank)
  bcast_S_S5x6422528 : S_.BroadcastsInDim S5x6422528 (![] : Fin 0 → Fin S5x6422528.rank)
  bcast_S6422528_S7x6422528_1 : S6422528.BroadcastsInDim S7x6422528 (![1] : Fin 1 → Fin S7x6422528.rank)
  bcast_S_S7x6422528 : S_.BroadcastsInDim S7x6422528 (![] : Fin 0 → Fin S7x6422528.rank)
  inb_S5x131072_S5x131072_0_0 : ∀ a, (![0, 0] : Fin 2 → Nat) a + S5x131072.size a ≤ S5x131072.size a
  h_S5x131072 : 0 < S5x131072.numel
  shapeCasts_S5x131072_S5x131072 : S5x131072.ShapeCasts S5x131072
  inb_S7x131072_S7x131072_0_0 : ∀ a, (![0, 0] : Fin 2 → Nat) a + S7x131072.size a ≤ S7x131072.size a
  h_S7x131072 : 0 < S7x131072.numel
  shapeCasts_S7x131072_S7x131072 : S7x131072.ShapeCasts S7x131072
  slices_S5x131072_o0_0_S2x131072 : S5x131072.Slices ![0, 0] S2x131072
  slices_S5x131072_o2_0_S2x131072 : S5x131072.Slices ![2, 0] S2x131072
  slices_S5x131072_o4_0_S1x131072 : S5x131072.Slices ![4, 0] S1x131072
  slices_S7x131072_o0_0_S2x131072 : S7x131072.Slices ![0, 0] S2x131072
  slices_S7x131072_o2_0_S2x131072 : S7x131072.Slices ![2, 0] S2x131072
  slices_S7x131072_o4_0_S3x131072 : S7x131072.Slices ![4, 0] S3x131072
  reduces_S2x131072_S131072 : S2x131072.Reduces [0] S131072
  shapeCasts_S131072_S1x131072 : S131072.ShapeCasts S1x131072
  slices_S3x131072_o0_0_S1x131072 : S3x131072.Slices ![0, 0] S1x131072
  broadcasts_S1x131072_S2x131072 : S1x131072.Broadcasts S2x131072
  slices_S3x131072_o1_0_S1x131072 : S3x131072.Slices ![1, 0] S1x131072
  slices_S3x131072_o2_0_S1x131072 : S3x131072.Slices ![2, 0] S1x131072
  inb_S2x131072_S2x131072_0_0 : ∀ a, (![0, 0] : Fin 2 → Nat) a + S2x131072.size a ≤ S2x131072.size a
  h_S2x131072 : 0 < S2x131072.numel
  slices_S2x6422528_S1x6422528_0_0 : S2x6422528.Slices ![0, 0] S1x6422528
  shapeCasts_S1x6422528_S6422528 : S1x6422528.ShapeCasts S6422528
  bcast_S_S100001 : S_.BroadcastsInDim S100001 (![] : Fin 0 → Fin S100001.rank)
  slices_S100001_S100000_0 : S100001.Slices ![0] S100000
  slices_S2x6422528_S1x6422528_1_0 : S2x6422528.Slices ![1, 0] S1x6422528
  concatenates_S100000x1_S100000x1_S100000x2_d1 : Shape.Concatenates [S100000x1, S100000x1] S100000x2 1
  gather_S16x3_S100000x1_S100000x3_1_0_n_n_0_1_13_wf : GatherDims.WF S16x3 S100000x1 S100000x3 [1] [0] [] [0] [] 1 ![1, 3]
  gather_S5x100000_S6422528x1_S5x6422528_0_1_n_n_1_1_51_wf : GatherDims.WF S5x100000 S6422528x1 S5x6422528 [0] [1] [] [1] [] 1 ![5, 1]
  gather_S7x100000_S6422528x1_S7x6422528_0_1_n_n_1_1_71_wf : GatherDims.WF S7x100000 S6422528x1 S7x6422528 [0] [1] [] [1] [] 1 ![7, 1]
  scatter_S100001_S6422528x1_S6422528_n_0_0_1_wf : ScatterDims.WF S100001 S6422528x1 S6422528 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x131072.size a ≤ S5x6422528.size a
  hwx0_0 : ∀ i : grid0.Coords, EltTy.bits .f32 = 32 ∨ (Rect.block (s := S5x6422528) S5x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S7x131072.size a ≤ S7x6422528.size a
  hwx0_1 : ∀ i : grid0.Coords, EltTy.bits .f32 = 32 ∨ (Rect.block (s := S7x6422528) S7x131072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x131072.size a ≤ S2x6422528.size a
  hwx0_2 : ∀ i : grid0.Coords, EltTy.bits .f32 = 32 ∨ (Rect.block (s := S2x6422528) S2x131072.size (cc0_transform_2 i) (hinb0_2 i)).WholeWords (EltTy.packing .f32)

variable [Facts₀]

def gather_S16x3_S100000x1_S100000x3_1_0_n_n_0_1_13 : GatherDims S16x3 S100000x1 S100000x3 where
  offsetDims := [1]
  collapsedSliceDims := [0]
  operandBatchingDims := []
  startIndicesBatchingDims := []
  startIndexMap := [0]
  indexVectorDim := 1
  sliceSizes := ![1, 3]
  wf := gather_S16x3_S100000x1_S100000x3_1_0_n_n_0_1_13_wf
def gather_S5x100000_S6422528x1_S5x6422528_0_1_n_n_1_1_51 : GatherDims S5x100000 S6422528x1 S5x6422528 where
  offsetDims := [0]
  collapsedSliceDims := [1]
  operandBatchingDims := []
  startIndicesBatchingDims := []
  startIndexMap := [1]
  indexVectorDim := 1
  sliceSizes := ![5, 1]
  wf := gather_S5x100000_S6422528x1_S5x6422528_0_1_n_n_1_1_51_wf
def gather_S7x100000_S6422528x1_S7x6422528_0_1_n_n_1_1_71 : GatherDims S7x100000 S6422528x1 S7x6422528 where
  offsetDims := [0]
  collapsedSliceDims := [1]
  operandBatchingDims := []
  startIndicesBatchingDims := []
  startIndexMap := [1]
  indexVectorDim := 1
  sliceSizes := ![7, 1]
  wf := gather_S7x100000_S6422528x1_S7x6422528_0_1_n_n_1_1_71_wf
def scatter_S100001_S6422528x1_S6422528_n_0_0_1 : ScatterDims S100001 S6422528x1 S6422528 where
  updateWindowDims := []
  insertedWindowDims := [0]
  scatterDimsToOperandDims := [0]
  indexVectorDim := 1
  wf := scatter_S100001_S6422528x1_S6422528_n_0_0_1_wf

abbrev win0_0 : Pipeline.Window sig grid0 :=
  Pipeline.Window.ofSpec (Memref.whole main_v20) S5x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S7x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S2x131072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x2 : Shape := ⟨2, ![100000, 2]⟩
abbrev S16x3 : Shape := ⟨2, ![16, 3]⟩
abbrev S100000x1 : Shape := ⟨2, ![100000, 1]⟩
abbrev S100000 : Shape := ⟨1, ![100000]⟩
abbrev S2x6400000 : Shape := ⟨2, ![2, 6400000]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x2 : Shape := ⟨2, ![6400000, 2]⟩
abbrev S6400000x3 : Shape := ⟨2, ![6400000, 3]⟩

abbrev nBuf : Space → Nat
  | .hbm => 115
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S100000x2, .f32⟩
  | .hbm, ⟨2, _⟩ => ⟨S16x3, .f32⟩
  | .hbm, ⟨3, _⟩ => ⟨S100000x1, .f32⟩
  | .hbm, ⟨4, _⟩ => ⟨S100000, .i32⟩
  | .hbm, ⟨5, _⟩ => ⟨S2x6400000, .i32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S_, .i32⟩
  | .hbm, ⟨11, _⟩ => ⟨S6400000, .i32⟩
  | .hbm, ⟨12, _⟩ => ⟨S6400000, .i1⟩
  | .hbm, ⟨13, _⟩ => ⟨S_, .i32⟩
  | .hbm, ⟨14, _⟩ => ⟨S6400000, .i32⟩
  | .hbm, ⟨15, _⟩ => ⟨S6400000, .i32⟩
  | .hbm, ⟨16, _⟩ => ⟨S6400000, .i32⟩
  | .hbm, ⟨17, _⟩ => ⟨S6400000x1, .i32⟩
  | .hbm, ⟨18, _⟩ => ⟨S6400000x2, .f32⟩
  | .hbm, ⟨19, _⟩ => ⟨S_, .i32⟩
  | .hbm, ⟨20, _⟩ => ⟨S6400000, .i32⟩
  | .hbm, ⟨21, _⟩ => ⟨S6400000, .i1⟩
  | .hbm, ⟨22, _⟩ => ⟨S_, .i32⟩
  | .hbm, ⟨23, _⟩ => ⟨S6400000, .i32⟩
  | .hbm, ⟨24, _⟩ => ⟨S6400000, .i32⟩
  | .hbm, ⟨25, _⟩ => ⟨S6400000, .i32⟩
  | .hbm, ⟨26, _⟩ => ⟨S6400000x1, .i32⟩
  | .hbm, ⟨27, _⟩ => ⟨S6400000x2, .f32⟩
  | .hbm, ⟨28, _⟩ => ⟨S6400000x2, .f32⟩
  | .hbm, ⟨29, _⟩ => ⟨S_, .i32⟩
  | .hbm, ⟨30, _⟩ => ⟨S6400000, .i32⟩
  | .hbm, ⟨31, _⟩ => ⟨S6400000, .i1⟩
  | .hbm, ⟨32, _⟩ => ⟨S_, .i32⟩
  | .hbm, ⟨33, _⟩ => ⟨S6400000, .i32⟩
  | .hbm, ⟨34, _⟩ => ⟨S6400000, .i32⟩
  | .hbm, ⟨35, _⟩ => ⟨S6400000, .i32⟩
  | .hbm, ⟨36, _⟩ => ⟨S6400000x1, .i32⟩
  | .hbm, ⟨37, _⟩ => ⟨S6400000x2, .f32⟩
  | .hbm, ⟨38, _⟩ => ⟨S_, .i32⟩
  | .hbm, ⟨39, _⟩ => ⟨S6400000, .i32⟩
  | .hbm, ⟨40, _⟩ => ⟨S6400000, .i1⟩
  | .hbm, ⟨41, _⟩ => ⟨S_, .i32⟩
  | .hbm, ⟨42, _⟩ => ⟨S6400000, .i32⟩
  | .hbm, ⟨43, _⟩ => ⟨S6400000, .i32⟩
  | .hbm, ⟨44, _⟩ => ⟨S6400000, .i32⟩
  | .hbm, ⟨45, _⟩ => ⟨S6400000x1, .i32⟩
  | .hbm, ⟨46, _⟩ => ⟨S6400000x2, .f32⟩
  | .hbm, ⟨47, _⟩ => ⟨S6400000x2, .f32⟩
  | .hbm, ⟨48, _⟩ => ⟨S_, .i32⟩
  | .hbm, ⟨49, _⟩ => ⟨S6400000, .i32⟩
  | .hbm, ⟨50, _⟩ => ⟨S6400000, .i1⟩
  | .hbm, ⟨51, _⟩ => ⟨S_, .i32⟩
  | .hbm, ⟨52, _⟩ => ⟨S6400000, .i32⟩
  | .hbm, ⟨53, _⟩ => ⟨S6400000, .i32⟩
  | .hbm, ⟨54, _⟩ => ⟨S6400000, .i32⟩
  | .hbm, ⟨55, _⟩ => ⟨S6400000x1, .i32⟩
  | .hbm, ⟨56, _⟩ => ⟨S6400000, .i32⟩
  | .hbm, ⟨57, _⟩ => ⟨S_, .i32⟩
  | .hbm, ⟨58, _⟩ => ⟨S6400000, .i32⟩
  | .hbm, ⟨59, _⟩ => ⟨S6400000, .i1⟩
  | .hbm, ⟨60, _⟩ => ⟨S_, .i32⟩
  | .hbm, ⟨61, _⟩ => ⟨S6400000, .i32⟩
  | .hbm, ⟨62, _⟩ => ⟨S6400000, .i32⟩
  | .hbm, ⟨63, _⟩ => ⟨S6400000, .i32⟩
  | .hbm, ⟨64, _⟩ => ⟨S6400000x1, .i32⟩
  | .hbm, ⟨65, _⟩ => ⟨S6400000x3, .f32⟩
  | .hbm, ⟨66, _⟩ => ⟨S6400000x2, .f32⟩
  | .hbm, ⟨67, _⟩ => ⟨S_, .f32⟩
  | .hbm, ⟨68, _⟩ => ⟨S6400000, .f32⟩
  | .hbm, ⟨69, _⟩ => ⟨S6400000x1, .f32⟩
  | .hbm, ⟨70, _⟩ => ⟨S_, .f32⟩
  | .hbm, ⟨71, _⟩ => ⟨S6400000x1, .f32⟩
  | .hbm, ⟨72, _⟩ => ⟨S6400000x1, .i1⟩
  | .hbm, ⟨73, _⟩ => ⟨S_, .f32⟩
  | .hbm, ⟨74, _⟩ => ⟨S_, .f32⟩
  | .hbm, ⟨75, _⟩ => ⟨S6400000x1, .f32⟩
  | .hbm, ⟨76, _⟩ => ⟨S6400000x1, .f32⟩
  | .hbm, ⟨77, _⟩ => ⟨S6400000x1, .f32⟩
  | .hbm, ⟨78, _⟩ => ⟨S_, .f32⟩
  | .hbm, ⟨79, _⟩ => ⟨S6400000x1, .f32⟩
  | .hbm, ⟨80, _⟩ => ⟨S6400000x1, .f32⟩
  | .hbm, ⟨81, _⟩ => ⟨S6400000x2, .f32⟩
  | .hbm, ⟨82, _⟩ => ⟨S6400000x2, .f32⟩
  | .hbm, ⟨83, _⟩ => ⟨S6400000x1, .f32⟩
  | .hbm, ⟨84, _⟩ => ⟨S_, .f32⟩
  | .hbm, ⟨85, _⟩ => ⟨S6400000x1, .f32⟩
  | .hbm, ⟨86, _⟩ => ⟨S6400000x1, .f32⟩
  | .hbm, ⟨87, _⟩ => ⟨S6400000x2, .f32⟩
  | .hbm, ⟨88, _⟩ => ⟨S6400000x2, .f32⟩
  | .hbm, ⟨89, _⟩ => ⟨S6400000x1, .f32⟩
  | .hbm, ⟨90, _⟩ => ⟨S6400000x1, .f32⟩
  | .hbm, ⟨91, _⟩ => ⟨S_, .f32⟩
  | .hbm, ⟨92, _⟩ => ⟨S6400000x1, .f32⟩
  | .hbm, ⟨93, _⟩ => ⟨S6400000x1, .f32⟩
  | .hbm, ⟨94, _⟩ => ⟨S6400000x2, .f32⟩
  | .hbm, ⟨95, _⟩ => ⟨S6400000x2, .f32⟩
  | .hbm, ⟨96, _⟩ => ⟨S6400000x2, .f32⟩
  | .hbm, ⟨97, _⟩ => ⟨S6400000x2, .f32⟩
  | .hbm, ⟨98, _⟩ => ⟨S6400000x2, .f32⟩
  | .hbm, ⟨99, _⟩ => ⟨S6400000x2, .f32⟩
  | .hbm, ⟨100, _⟩ => ⟨S_, .i32⟩
  | .hbm, ⟨101, _⟩ => ⟨S6400000, .i32⟩
  | .hbm, ⟨102, _⟩ => ⟨S6400000, .i1⟩
  | .hbm, ⟨103, _⟩ => ⟨S_, .i32⟩
  | .hbm, ⟨104, _⟩ => ⟨S6400000, .i32⟩
  | .hbm, ⟨105, _⟩ => ⟨S6400000, .i32⟩
  | .hbm, ⟨106, _⟩ => ⟨S6400000, .i32⟩
  | .hbm, ⟨107, _⟩ => ⟨S6400000x1, .i32⟩
  | .hbm, ⟨108, _⟩ => ⟨S6400000x1, .f32⟩
  | .hbm, ⟨109, _⟩ => ⟨S6400000x2, .f32⟩
  | .hbm, ⟨110, _⟩ => ⟨S6400000x2, .f32⟩
  | .hbm, ⟨111, _⟩ => ⟨S_, .f32⟩
  | .hbm, ⟨112, _⟩ => ⟨S100000x2, .f32⟩
  | .hbm, ⟨113, _⟩ => ⟨S6400000x1, .i32⟩
  | .hbm, ⟨114, _⟩ => ⟨S100000x2, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_c_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_c_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_call0_v0 : Ref sig .tc := ⟨.hbm, 74, rfl⟩
abbrev main_call0_v1 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_c_17 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_18 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  reducesTo_S6400000x2_S6400000_d1 : S6400000x2.ReducesTo [1] S6400000
  h_S_ : 0 < S_.numel
  bcast_S_S6400000x1 : S_.BroadcastsInDim S6400000x1 (![] : Fin 0 → Fin S6400000x1.rank)
  slices_S6400000x3_S6400000x1_0_0 : S6400000x3.Slices ![0, 0] S6400000x1
  bcast_S6400000x1_S6400000x2_0_1 : S6400000x1.BroadcastsInDim S6400000x2 (![0, 1] : Fin 2 → Fin S6400000x2.rank)
  slices_S6400000x3_S6400000x1_0_1 : S6400000x3.Slices ![0, 1] S6400000x1
  slices_S6400000x3_S6400000x1_0_2 : S6400000x3.Slices ![0, 2] S6400000x1
  bcast_S_S100000x2 : S_.BroadcastsInDim S100000x2 (![] : Fin 0 → Fin S100000x2.rank)
  gather_S100000x2_S6400000x1_S6400000x2_1_0_n_n_0_1_12_wf : GatherDims.WF S100000x2 S6400000x1 S6400000x2 [1] [0] [] [0] [] 1 ![1, 2]
  gather_S100000_S6400000x1_S6400000_n_0_n_n_0_1_1_wf : GatherDims.WF S100000 S6400000x1 S6400000 [] [0] [] [0] [] 1 ![1]
  gather_S16x3_S6400000x1_S6400000x3_1_0_n_n_0_1_13_wf : GatherDims.WF S16x3 S6400000x1 S6400000x3 [1] [0] [] [0] [] 1 ![1, 3]
  gather_S100000x1_S6400000x1_S6400000x1_1_0_n_n_0_1_11_wf : GatherDims.WF S100000x1 S6400000x1 S6400000x1 [1] [0] [] [0] [] 1 ![1, 1]
  scatter_S100000x2_S6400000x1_S6400000x2_1_0_0_1_wf : ScatterDims.WF S100000x2 S6400000x1 S6400000x2 [1] [0] [0] 1

variable [Facts₀]

def gather_S100000x2_S6400000x1_S6400000x2_1_0_n_n_0_1_12 : GatherDims S100000x2 S6400000x1 S6400000x2 where
  offsetDims := [1]
  collapsedSliceDims := [0]
  operandBatchingDims := []
  startIndicesBatchingDims := []
  startIndexMap := [0]
  indexVectorDim := 1
  sliceSizes := ![1, 2]
  wf := gather_S100000x2_S6400000x1_S6400000x2_1_0_n_n_0_1_12_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S16x3_S6400000x1_S6400000x3_1_0_n_n_0_1_13 : GatherDims S16x3 S6400000x1 S6400000x3 where
  offsetDims := [1]
  collapsedSliceDims := [0]
  operandBatchingDims := []
  startIndicesBatchingDims := []
  startIndexMap := [0]
  indexVectorDim := 1
  sliceSizes := ![1, 3]
  wf := gather_S16x3_S6400000x1_S6400000x3_1_0_n_n_0_1_13_wf
def gather_S100000x1_S6400000x1_S6400000x1_1_0_n_n_0_1_11 : GatherDims S100000x1 S6400000x1 S6400000x1 where
  offsetDims := [1]
  collapsedSliceDims := [0]
  operandBatchingDims := []
  startIndicesBatchingDims := []
  startIndexMap := [0]
  indexVectorDim := 1
  sliceSizes := ![1, 1]
  wf := gather_S100000x1_S6400000x1_S6400000x1_1_0_n_n_0_1_11_wf
def scatter_S100000x2_S6400000x1_S6400000x2_1_0_0_1 : ScatterDims S100000x2 S6400000x1 S6400000x2 where
  updateWindowDims := [1]
  insertedWindowDims := [0]
  scatterDimsToOperandDims := [0]
  indexVectorDim := 1
  wf := scatter_S100000x2_S6400000x1_S6400000x2_1_0_0_1_wf

class Facts : Prop extends Facts₀ where

variable [Facts]
-- ==== Proof.EntryK.lean ====
/-
  What the kernel's region finds in memory when it is entered: the contents every buffer has after the host operations that
  come before the region, as one valuation.
-/
import proofs.«428443_j28338194219042_3_alg».proof.Proof.Gen.Kernel.Launch
import Idealize.ShloMosaic.Lib.Pipeline.FrameSuffix

noncomputable section

namespace Cert.Kernel.Frame

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The stretches of host operations before the region, in order. -/
abbrev preOps : List (List (HloOp τ sig (Elt F))) :=
  [hostOps0, hostOps0_1, hostOps0_2, hostOps0_3, hostOps0_4, hostOps0_5, hostOps0_6, hostOps0_7, hostOps0_8, hostOps0_9,
   hostOps0_10, hostOps0_11]

/-- Core c's buffer contents when the region is entered. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

end Cert.Kernel.Frame

end
-- ==== Proof.FrameK.lean ====
/-
  The kernel's program runs to its end without a fault and leaves its argument arrays as it found them.

  The program is host operations, one region whose body runs once per grid point on staged blocks, and host operations
  again.  At a grid point the body loads its two input blocks whole, computes, and overwrites its output block whole; so
  after the body the output's staging buffer holds the body's value of the two input blocks, and the inputs' buffers are
  untouched.  The run of the whole program then follows from the pipeline's launch rule: every array the region stages
  ends at what the blocks written back make of it, and every other buffer at what the host operations leave.
-/
import proofs.«428443_j28338194219042_3_alg».proof.Proof.Gen.Kernel.Launch
import proofs.«428443_j28338194219042_3_alg».proof.Proof.Gen.Kernel.Skeleton
import proofs.«428443_j28338194219042_3_alg».proof.Proof.Gen.Kernel.Points
import proofs.«428443_j28338194219042_3_alg».proof.Proof.EntryK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the host operations after it: it reduces to the
    region continued by the later operations, entered at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh⟩) main_chain

/-- The later operations touch only the region's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes an array of the region: each writes only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every grid point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end of a run -/

/-- From a run to the launch rule's post, for any proof data whose arrays are the region-entry contents: no argument
    array is staged by the region nor written by a host operation, so each ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c))⟩) h

/-! ## The body at one grid point -/

abbrev r0_0 : Rect S5x131072 := Rect.unit (s := S5x131072) ![0, 0] S5x131072.size inb_S5x131072_S5x131072_0_0
abbrev r0_1 : Rect S7x131072 := Rect.unit (s := S7x131072) ![0, 0] S7x131072.size inb_S7x131072_S7x131072_0_0
abbrev r0_2 : Rect S2x131072 := Rect.unit (s := S2x131072) ![0, 0] S2x131072.size inb_S2x131072_S2x131072_0_0

/-- What the body leaves in the output window's staging buffer, from the two input blocks: its one store, which covers
    the buffer. -/
def out0_2 (x0 : Vec F S5x131072 .f32) (x1 : Vec F S7x131072 .f32) : Vec F S2x131072 .f32 :=
  View.canon [⟨r0_2, k0_pay1 (View.ld x0 r0_0) (View.ld x1 r0_1)⟩]

/-- The store covers the buffer. -/
theorem cover0_2 (p0 : Vec F S2x131072 .f32) (y : S2x131072.Idx) :
    ∃ pc ∈ ([⟨r0_2, p0⟩] : List (View.Piece (Elt F) S2x131072 .f32)), y ∈ pc.1.set :=
  View.cover_of_tiled [⟨r0_2, p0⟩] S2x131072.size (by rfl) y

set_option maxHeartbeats 1000000 in
/-- The body on whole staging buffers, the inputs' at contents x0 and x1 and the output's at anything, runs to a state
    holding the inputs' as they were and the output's at `out0_2 x0 x1`. -/
theorem sound_kernel (c : Dev nD) (E : Set ℕ) (i : grid0.Coords) (arg1 : Memref sig .tc .vmem S5x131072 .f32) (harg1 : arg1.IsWhole)
    (arg2 : Memref sig .tc .vmem S7x131072 .f32) (harg2 : arg2.IsWhole) (arg3 : Memref sig .tc .vmem S2x131072 .f32) (harg3 : arg3.IsWhole)
    (x0 : Vec F S5x131072 .f32) (x1 : Vec F S7x131072 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__message_kernel i arg1 harg1 arg2 harg2 arg3 harg3) K := by
  simp only [cc0__message_kernel_eq_skeleton]; unfold cc0__message_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at grid point t each input's buffer at its block and the
    output's at the body's value of the two input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any grid point: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the region at what
    the blocks written back make of it and every other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Frame

end
-- ==== Proof.EntryKI.lean ====
/-
  What the kernel's region finds in memory when it is entered: the contents every buffer has after the host operations that
  come before the region, as one valuation.
-/
import proofs.«428443_j28338194219042_3_alg».proof.Proof.Gen.KernelIdeal.Launch
import Idealize.ShloMosaic.Lib.Pipeline.FrameSuffix

noncomputable section

namespace Cert.KernelIdeal.Frame

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The stretches of host operations before the region, in order. -/
abbrev preOps : List (List (HloOp τ sig (Elt F))) :=
  [hostOps0, hostOps0_1, hostOps0_2, hostOps0_3, hostOps0_4, hostOps0_5, hostOps0_6, hostOps0_7, hostOps0_8, hostOps0_9,
   hostOps0_10, hostOps0_11]

/-- Core c's buffer contents when the region is entered. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

end Cert.KernelIdeal.Frame

end
-- ==== Proof.FrameKI.lean ====
/-
  The kernel's program runs to its end without a fault and leaves its argument arrays as it found them.

  The program is host operations, one region whose body runs once per grid point on staged blocks, and host operations
  again.  At a grid point the body loads its two input blocks whole, computes, and overwrites its output block whole; so
  after the body the output's staging buffer holds the body's value of the two input blocks, and the inputs' buffers are
  untouched.  The run of the whole program then follows from the pipeline's launch rule: every array the region stages
  ends at what the blocks written back make of it, and every other buffer at what the host operations leave.
-/
import proofs.«428443_j28338194219042_3_alg».proof.Proof.Gen.KernelIdeal.Launch
import proofs.«428443_j28338194219042_3_alg».proof.Proof.Gen.KernelIdeal.Skeleton
import proofs.«428443_j28338194219042_3_alg».proof.Proof.Gen.KernelIdeal.Points
import proofs.«428443_j28338194219042_3_alg».proof.Proof.EntryKI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the host operations after it: it reduces to the
    region continued by the later operations, entered at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh⟩) main_chain

/-- The later operations touch only the region's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes an array of the region: each writes only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every grid point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end of a run -/

/-- From a run to the launch rule's post, for any proof data whose arrays are the region-entry contents: no argument
    array is staged by the region nor written by a host operation, so each ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c))⟩) h

/-! ## The body at one grid point -/

abbrev r0_0 : Rect S5x131072 := Rect.unit (s := S5x131072) ![0, 0] S5x131072.size inb_S5x131072_S5x131072_0_0
abbrev r0_1 : Rect S7x131072 := Rect.unit (s := S7x131072) ![0, 0] S7x131072.size inb_S7x131072_S7x131072_0_0
abbrev r0_2 : Rect S2x131072 := Rect.unit (s := S2x131072) ![0, 0] S2x131072.size inb_S2x131072_S2x131072_0_0

/-- What the body leaves in the output window's staging buffer, from the two input blocks: its one store, which covers
    the buffer. -/
def out0_2 (x0 : Vec F S5x131072 .f32) (x1 : Vec F S7x131072 .f32) : Vec F S2x131072 .f32 :=
  View.canon [⟨r0_2, k0_pay1 (View.ld x0 r0_0) (View.ld x1 r0_1)⟩]

/-- The store covers the buffer. -/
theorem cover0_2 (p0 : Vec F S2x131072 .f32) (y : S2x131072.Idx) :
    ∃ pc ∈ ([⟨r0_2, p0⟩] : List (View.Piece (Elt F) S2x131072 .f32)), y ∈ pc.1.set :=
  View.cover_of_tiled [⟨r0_2, p0⟩] S2x131072.size (by rfl) y

set_option maxHeartbeats 1000000 in
/-- The body on whole staging buffers, the inputs' at contents x0 and x1 and the output's at anything, runs to a state
    holding the inputs' as they were and the output's at `out0_2 x0 x1`. -/
theorem sound_kernel (c : Dev nD) (E : Set ℕ) (i : grid0.Coords) (arg1 : Memref sig .tc .vmem S5x131072 .f32) (harg1 : arg1.IsWhole)
    (arg2 : Memref sig .tc .vmem S7x131072 .f32) (harg2 : arg2.IsWhole) (arg3 : Memref sig .tc .vmem S2x131072 .f32) (harg3 : arg3.IsWhole)
    (x0 : Vec F S5x131072 .f32) (x1 : Vec F S7x131072 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__message_kernel i arg1 harg1 arg2 harg2 arg3 harg3) K := by
  simp only [cc0__message_kernel_eq_skeleton]; unfold cc0__message_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at grid point t each input's buffer at its block and the
    output's at the body's value of the two input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any grid point: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the region at what
    the blocks written back make of it and every other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Frame

end
-- ==== Proof.Spec.lean ====
/-
  The mathematics both programs compute, stated once, over the extended reals.

  Nodes carry a position and a velocity in the plane, a scalar field value and a type; the type selects a row of three
  interaction parameters.  Edge e goes from a sender s = edge[1, e] to a receiver d = edge[0, e].  With dp = pos s − pos d,
  dv = vel s − vel d and r² = dp · dp (replaced by 1 where it is not positive), the message of the edge is

      ( (−par₂ · a₃) · dp / r²  +  (par₁ · a₂) · dv  +  (par₀ · a₁) · dp ) · field s ,

  par the parameter row of the receiver's type.  The result at node i is the sum of the messages of the edges whose receiver
  is i.  Every node number is read under the hypothesis that it lies in [0, 100000).
-/
import Idealize.ShloMosaic.PureOps.Ideal
import Idealize.ShloMosaic.Lib.ValueIdx

noncomputable section

open scoped BigOperators

namespace Cert.Spec

open Idealize.ShloMosaic Idealize.ShloMosaic.ValueIdx

abbrev SN2 : Shape := ⟨2, ![100000, 2]⟩
abbrev ST : Shape := ⟨2, ![16, 3]⟩
abbrev SN1 : Shape := ⟨2, ![100000, 1]⟩
abbrev SN : Shape := ⟨1, ![100000]⟩
abbrev SE : Shape := ⟨2, ![2, 6400000]⟩

/-- The three interaction scales and the stand-in for a vanishing squared distance, as the binary values both programs carry. -/
def a1 : EReal := Ideal.ofBits .f32 0x36A7C5AC#32
def a2 : EReal := Ideal.ofBits .f32 0x3A03126F#32
def a3 : EReal := Ideal.ofBits .f32 0x322BCC77#32
def one : EReal := Ideal.ofBits .f32 0x3F800000#32

/-- The squared distance between sender and receiver, and the same with 1 in place of a value that is not positive. -/
def dist2 (ps pd : Fin 2 → EReal) : EReal := (ps 0 - pd 0) * (ps 0 - pd 0) + (ps 1 - pd 1) * (ps 1 - pd 1)
def safe2 (ps pd : Fin 2 → EReal) : EReal := Scalar.select (Ideal.cmp .ogt (dist2 ps pd) 0) (dist2 ps pd) one

/-- One edge's message, component k, from the sender's and the receiver's position and velocity, the receiver's parameter
    row and the sender's field value. -/
def msgOf (ps pd vs vd : Fin 2 → EReal) (par : Fin 3 → EReal) (fs : EReal) (k : Fin 2) : EReal :=
  (Ideal.div (-(par 2) * a3 * (ps k - pd k)) (safe2 ps pd) + par 1 * a2 * (vs k - vd k) + par 0 * a1 * (ps k - pd k)) * fs

/-- A node number read off an index word: signed, and kept inside [0, 99999]. -/
def node (w : BitVec 32) : Fin 100000 := ⟨min w.toInt.toNat 99999, by omega⟩

/-- The parameter row a type word selects: a negative word counts from the end, and the row is kept inside [0, 15]. -/
def typeRow (t : BitVec 32) : Fin 16 :=
  ⟨min (Scalar.select (IntOp.cmpi .slt t 0#32) (IntOp.addi t 16#32) t).toInt.toNat 15, by omega⟩

/-- Every entry of the edge list is a node number. -/
def InRange (edge : IVec SE 32) : Prop :=
  ∀ (r : Fin 2) (e : Fin 6400000), 0 ≤ (edge (ix2 r e)).toInt ∧ (edge (ix2 r e)).toInt < 100000

/-- The message of edge e, component k, from the argument arrays. -/
def edgeMsg (pos vel : FVec Ideal SN2 .f32) (ptab : FVec Ideal ST .f32) (field : FVec Ideal SN1 .f32) (ptype : IVec SN 32)
    (edge : IVec SE 32) (e : Fin 6400000) (k : Fin 2) : EReal :=
  msgOf (fun a => pos (ix2 (node (edge (ix2 1 e))) a)) (fun a => pos (ix2 (node (edge (ix2 0 e))) a))
    (fun a => vel (ix2 (node (edge (ix2 1 e))) a)) (fun a => vel (ix2 (node (edge (ix2 0 e))) a))
    (fun j => ptab (ix2 (typeRow (ptype (ix1 (node (edge (ix2 0 e)))))) j))
    (field (ix2 (node (edge (ix2 1 e))) 0)) k

/-- The result at node i, component k: the messages of the edges received by i, summed. -/
def resultAt (pos vel : FVec Ideal SN2 .f32) (ptab : FVec Ideal ST .f32) (field : FVec Ideal SN1 .f32) (ptype : IVec SN 32)
    (edge : IVec SE 32) (i : Fin 100000) (k : Fin 2) : EReal :=
  ∑ e ∈ Finset.univ.filter (fun e : Fin 6400000 => (edge (ix2 0 e)).toInt = (i.val : ℤ)),
    edgeMsg pos vel ptab field ptype edge e k

/-- The result as an array. -/
def result (pos vel : FVec Ideal SN2 .f32) (ptab : FVec Ideal ST .f32) (field : FVec Ideal SN1 .f32) (ptype : IVec SN 32)
    (edge : IVec SE 32) : FVec Ideal SN2 .f32 :=
  fun j => resultAt pos vel ptab field ptype edge (j 0) (j 1)

theorem result_apply (pos vel : FVec Ideal SN2 .f32) (ptab : FVec Ideal ST .f32) (field : FVec Ideal SN1 .f32) (ptype : IVec SN 32)
    (edge : IVec SE 32) (i : Fin 100000) (k : Fin 2) :
    result pos vel ptab field ptype edge (ix2 i k) = resultAt pos vel ptab field ptype edge i k := rfl

/-! ## The per-node feature tables the kernel gathers from

The kernel lays each node's sender features out as five rows (position, velocity, field) and its receiver features as seven
(position, velocity, the parameter row of its type), and reads one column per edge. -/

/-- Rows of the five- and seven-row tables that hold a plane vector's component a, and a parameter's. -/
def lo5 (a : Fin 2) : Fin 5 := ⟨a.val, by omega⟩
def hi5 (a : Fin 2) : Fin 5 := ⟨a.val + 2, by omega⟩
def lo7 (a : Fin 2) : Fin 7 := ⟨a.val, by omega⟩
def hi7 (a : Fin 2) : Fin 7 := ⟨a.val + 2, by omega⟩
def par7 (b : Fin 3) : Fin 7 := ⟨b.val + 4, by omega⟩

/-- Sender features of node s: position (rows 0, 1), velocity (rows 2, 3), field (row 4). -/
def srcRow (pos vel : FVec Ideal SN2 .f32) (field : FVec Ideal SN1 .f32) (s : Fin 100000) (f : Fin 5) : EReal :=
  if h : f.val < 2 then pos (ix2 s (⟨f.val, h⟩ : Fin 2))
  else if h2 : f.val < 4 then vel (ix2 s (⟨f.val - 2, by omega⟩ : Fin 2))
  else field (ix2 s (0 : Fin 1))

/-- Receiver features of node d: position (rows 0, 1), velocity (rows 2, 3), the parameter row of its type (rows 4 to 6). -/
def dstRow (pos vel : FVec Ideal SN2 .f32) (ptab : FVec Ideal ST .f32) (ptype : IVec SN 32) (d : Fin 100000) (f : Fin 7) : EReal :=
  if h : f.val < 2 then pos (ix2 d (⟨f.val, h⟩ : Fin 2))
  else if h2 : f.val < 4 then vel (ix2 d (⟨f.val - 2, by omega⟩ : Fin 2))
  else ptab (ix2 (typeRow (ptype (ix1 d))) (⟨f.val - 4, by omega⟩ : Fin 3))

theorem srcRow_lo (pos vel : FVec Ideal SN2 .f32) (field : FVec Ideal SN1 .f32) (s : Fin 100000) (a : Fin 2) :
    srcRow pos vel field s (lo5 a) = pos (ix2 s a) := by
  unfold srcRow lo5; rw [dif_pos (show a.val < 2 from a.isLt)]
theorem srcRow_hi (pos vel : FVec Ideal SN2 .f32) (field : FVec Ideal SN1 .f32) (s : Fin 100000) (a : Fin 2) :
    srcRow pos vel field s (hi5 a) = vel (ix2 s a) := by
  unfold srcRow hi5
  rw [dif_neg (show ¬ (a.val + 2 < 2) by omega), dif_pos (show a.val + 2 < 4 by have := a.isLt; omega)]
  congr 2
theorem srcRow_field (pos vel : FVec Ideal SN2 .f32) (field : FVec Ideal SN1 .f32) (s : Fin 100000) :
    srcRow pos vel field s (4 : Fin 5) = field (ix2 s (0 : Fin 1)) := by
  unfold srcRow
  rw [dif_neg (show ¬ ((4 : Fin 5).val < 2) by decide), dif_neg (show ¬ ((4 : Fin 5).val < 4) by decide)]
theorem dstRow_lo (pos vel : FVec Ideal SN2 .f32) (ptab : FVec Ideal ST .f32) (ptype : IVec SN 32) (d : Fin 100000) (a : Fin 2) :
    dstRow pos vel ptab ptype d (lo7 a) = pos (ix2 d a) := by
  unfold dstRow lo7; rw [dif_pos (show a.val < 2 from a.isLt)]
theorem dstRow_hi (pos vel : FVec Ideal SN2 .f32) (ptab : FVec Ideal ST .f32) (ptype : IVec SN 32) (d : Fin 100000) (a : Fin 2) :
    dstRow pos vel ptab ptype d (hi7 a) = vel (ix2 d a) := by
  unfold dstRow hi7
  rw [dif_neg (show ¬ (a.val + 2 < 2) by omega), dif_pos (show a.val + 2 < 4 by have := a.isLt; omega)]
  congr 2
theorem dstRow_par (pos vel : FVec Ideal SN2 .f32) (ptab : FVec Ideal ST .f32) (ptype : IVec SN 32) (d : Fin 100000) (b : Fin 3) :
    dstRow pos vel ptab ptype d (par7 b) = ptab (ix2 (typeRow (ptype (ix1 d))) b) := by
  unfold dstRow par7
  rw [dif_neg (show ¬ (b.val + 4 < 2) by omega), dif_neg (show ¬ (b.val + 4 < 4) by omega)]
  congr 2

/-- The message of edge e from the two tables' columns. -/
theorem edgeMsg_eq_rows (pos vel : FVec Ideal SN2 .f32) (ptab : FVec Ideal ST .f32) (field : FVec Ideal SN1 .f32) (ptype : IVec SN 32)
    (edge : IVec SE 32) (e : Fin 6400000) (k : Fin 2) :
    edgeMsg pos vel ptab field ptype edge e k
      = msgOf (fun a => srcRow pos vel field (node (edge (ix2 1 e))) (lo5 a))
          (fun a => dstRow pos vel ptab ptype (node (edge (ix2 0 e))) (lo7 a))
          (fun a => srcRow pos vel field (node (edge (ix2 1 e))) (hi5 a))
          (fun a => dstRow pos vel ptab ptype (node (edge (ix2 0 e))) (hi7 a))
          (fun b => dstRow pos vel ptab ptype (node (edge (ix2 0 e))) (par7 b))
          (srcRow pos vel field (node (edge (ix2 1 e))) (4 : Fin 5)) k := by
  unfold edgeMsg
  simp only [srcRow_lo, srcRow_hi, srcRow_field, dstRow_lo, dstRow_hi, dstRow_par]

end Cert.Spec

end
-- ==== Proof.KPayload.lean ====
/-
  The kernel body's arithmetic at one edge: column j of the stored block is the edge message of column j of the two loaded blocks.
-/
import proofs.«428443_j28338194219042_3_alg».proof.Proof.Gen.KernelIdeal.Skeleton
import proofs.«428443_j28338194219042_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-! ## Rows of a block

A slice of whole rows of a two-axis block reads, at (a, j), the block at (offset + a, j); a one-row block spread over several
rows reads its only row; the sum over the row axis of a two-row block is the sum of its two rows; and a vector viewed as a
one-row block reads the vector. -/

section Rows
variable {α : Type}

/-- Rows o, o+1, … of an m-row block: entry (a, j) of the slice is entry (r, j) of the block, r = o + a. -/
theorem slice_rows {m m' n : Nat} (o : Nat) (x : (⟨2, ![m, n]⟩ : Shape).Idx → α)
    (h : (⟨2, ![m, n]⟩ : Shape).Slices ![o, 0] ⟨2, ![m', n]⟩) (a : Fin m') (j : Fin n) (r : Fin m) (hr : r.val = o + a.val) :
    extractStridedSlice ⟨2, ![m', n]⟩ ![o, 0] x h (ix2 a j) = x (ix2 r j) :=
  extractStridedSlice_apply _ x h _ _ fun b => match b with
    | ⟨0, _⟩ => by show r.val = o + a.val; exact hr
    | ⟨1, _⟩ => by show j.val = 0 + j.val; omega

theorem slice5_lo (x : S5x131072.Idx → α) (h : S5x131072.Slices ![0, 0] S2x131072) (a : Fin 2) (j : Fin 131072) :
    extractStridedSlice S2x131072 ![0, 0] x h (ix2 a j) = x (ix2 (Cert.Spec.lo5 a) j) :=
  slice_rows 0 x h a j _ (by show a.val = 0 + a.val; omega)

theorem slice5_hi (x : S5x131072.Idx → α) (h : S5x131072.Slices ![2, 0] S2x131072) (a : Fin 2) (j : Fin 131072) :
    extractStridedSlice S2x131072 ![2, 0] x h (ix2 a j) = x (ix2 (Cert.Spec.hi5 a) j) :=
  slice_rows 2 x h a j _ (by show a.val + 2 = 2 + a.val; omega)

theorem slice5_last (x : S5x131072.Idx → α) (h : S5x131072.Slices ![4, 0] S1x131072) (j : Fin 131072) :
    extractStridedSlice S1x131072 ![4, 0] x h (ix2 (0 : Fin 1) j) = x (ix2 (4 : Fin 5) j) :=
  slice_rows 4 x h 0 j _ rfl

theorem slice7_lo (x : S7x131072.Idx → α) (h : S7x131072.Slices ![0, 0] S2x131072) (a : Fin 2) (j : Fin 131072) :
    extractStridedSlice S2x131072 ![0, 0] x h (ix2 a j) = x (ix2 (Cert.Spec.lo7 a) j) :=
  slice_rows 0 x h a j _ (by show a.val = 0 + a.val; omega)

theorem slice7_hi (x : S7x131072.Idx → α) (h : S7x131072.Slices ![2, 0] S2x131072) (a : Fin 2) (j : Fin 131072) :
    extractStridedSlice S2x131072 ![2, 0] x h (ix2 a j) = x (ix2 (Cert.Spec.hi7 a) j) :=
  slice_rows 2 x h a j _ (by show a.val + 2 = 2 + a.val; omega)

theorem slice7_par (x : S7x131072.Idx → α) (h : S7x131072.Slices ![4, 0] S3x131072) (b : Fin 3) (j : Fin 131072) :
    extractStridedSlice S3x131072 ![4, 0] x h (ix2 b j) = x (ix2 (Cert.Spec.par7 b) j) :=
  slice_rows 4 x h b j _ (by show b.val + 4 = 4 + b.val; omega)

/-- Row 0, 1, 2 of a three-row block, as a one-row block. -/
theorem slice3_row0 (x : S3x131072.Idx → α) (h : S3x131072.Slices ![0, 0] S1x131072) (j : Fin 131072) :
    extractStridedSlice S1x131072 ![0, 0] x h (ix2 (0 : Fin 1) j) = x (ix2 (0 : Fin 3) j) :=
  slice_rows 0 x h 0 j _ rfl

theorem slice3_row1 (x : S3x131072.Idx → α) (h : S3x131072.Slices ![1, 0] S1x131072) (j : Fin 131072) :
    extractStridedSlice S1x131072 ![1, 0] x h (ix2 (0 : Fin 1) j) = x (ix2 (1 : Fin 3) j) :=
  slice_rows 1 x h 0 j _ rfl

theorem slice3_row2 (x : S3x131072.Idx → α) (h : S3x131072.Slices ![2, 0] S1x131072) (j : Fin 131072) :
    extractStridedSlice S1x131072 ![2, 0] x h (ix2 (0 : Fin 1) j) = x (ix2 (2 : Fin 3) j) :=
  slice_rows 2 x h 0 j _ rfl

/-- A one-row block spread over two rows reads its only row. -/
theorem spread_row (x : S1x131072.Idx → α) (h : S1x131072.Broadcasts S2x131072) (a : Fin 2) (j : Fin 131072) :
    broadcastTo S2x131072 x h (ix2 a j) = x (ix2 (0 : Fin 1) j) :=
  broadcastTo_apply x h _ _ fun b => match b with
    | ⟨0, _⟩ => rfl
    | ⟨1, _⟩ => rfl

/-- A vector viewed as a one-row block. -/
theorem as_row (x : S131072.Idx → α) (h : S131072.ShapeCasts S1x131072) (j : Fin 131072) :
    shapeCast S1x131072 x h (ix2 (0 : Fin 1) j) = x (ix1 j) := by
  refine (shapeCast_addUnit_apply ![131072] x h _).trans (congrArg x ?_)
  funext d
  match d with
  | ⟨0, _⟩ => rfl

end Rows

/-- The sum over the row axis of a two-row block. -/
theorem sum_rows (x : S2x131072.Idx → EReal) (h : S2x131072.Reduces [0] S131072) (j : Fin 131072) :
    Ideal.reduceAdd h x (ix1 j) = x (ix2 (0 : Fin 2) j) + x (ix2 (1 : Fin 2) j) := by
  refine (Ideal.reduceAdd_single h x (ix1 j)).trans ?_
  refine (Fin.sum_univ_two (fun k : Fin 2 => x (h.lift (ix1 j) k))).trans ?_
  have e : ∀ k : Fin 2, h.lift (ix1 j) k = ix2 k j := fun k => by
    funext d
    match d with
    | ⟨0, _⟩ => exact Fin.ext rfl
    | ⟨1, _⟩ => exact Fin.ext rfl
  rw [e 0, e 1]

/-- Entry (k, j) of the body's stored value is the message built from column j of the sender block (five rows) and of the
    receiver block (seven rows). -/
theorem pay_apply (x0 : Vec Ideal S5x131072 .f32) (x2 : Vec Ideal S7x131072 .f32) (k : Fin 2) (j : Fin 131072) :
    k0_pay1 (F := Ideal) x0 x2 (ix2 k j)
      = Cert.Spec.msgOf (fun a => x0 (ix2 (Cert.Spec.lo5 a) j)) (fun a => x2 (ix2 (Cert.Spec.lo7 a) j))
          (fun a => x0 (ix2 (Cert.Spec.hi5 a) j)) (fun a => x2 (ix2 (Cert.Spec.hi7 a) j))
          (fun b => x2 (ix2 (Cert.Spec.par7 b) j)) (x0 (ix2 (4 : Fin 5) j)) k := by
  unfold k0_pay1
  -- every operation but the row sum is read at (k, j): slices and spreads pick a row of column j, the rest act entrywise
  simp only [mulf_apply, addf_apply, subf_apply, divf_apply, cmpf_apply, select_apply, broadcast_apply, shapeCast_self,
    spread_row, as_row, slice5_lo, slice5_hi, slice5_last, slice7_lo, slice7_hi, slice7_par,
    slice3_row0, slice3_row1, slice3_row2]
  -- the row sum of the squared position differences is the squared distance dp₀·dp₀ + dp₁·dp₁
  simp only [multiReduction, Ideal.reduceAdd_def, sum_rows, mulf_apply, subf_apply, slice5_lo, slice7_lo]
  -- the constants are the spec's, the comparison is the extended reals', and 0 − x = −x
  simp only [Ideal.ofBits_def, Ideal.cmpf_def, Ideal.ofBits_zero_f32, zero_sub]
  rfl

end Cert.KernelIdeal.Payload

end
-- ==== Proof.LibScatterGather.lean ====
/-
  Three host operations read at one element, for any extents: a gather of whole rows of a matrix at a column of row
  numbers, and an accumulating scatter into a vector or into the rows of a matrix at a column of positions.

  A gather clamps the row number it reads (signed) into the matrix; a scatter reads the position signed and does NOT
  clamp it: an update whose position is outside the target is dropped.  At the exact (extended-real) instance the
  accumulating scatter is the target's entry plus the sum of the updates that land on it.
-/
import Idealize.ShloMosaic.PureOps.Ideal
import Idealize.ShloMosaic.PureOps.Contract
import Idealize.ShloMosaic.Lib.ValueIdx
import Idealize.ShloMosaic.Lib.StableHlo.Predicate

noncomputable section

open scoped BigOperators

namespace Cert.LibSG

open Idealize.ShloMosaic Idealize.ShloMosaic.ValueIdx Idealize.ShloMosaic.StableHlo.Predicate

/-- Rows gathered from an [N × D] matrix at an [n × 1] column of row numbers: entry (p, f) of the result is the matrix's
    entry (row p's number read signed and clamped into [0, N − 1], f). -/
theorem gather_rows {α : Type} {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![n, 1]⟩ w) (p : Fin n) (f : Fin D) (hN : 0 < N) :
    Host.gather d x idx (ix2 p f) = x (ix2 (⟨min (idx (ixP p)).toInt.toNat (N - 1), by omega⟩ : Fin N) f) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨2, ![N, D]⟩) (si := ⟨2, ![n, 1]⟩) (t := ⟨2, ![n, D]⟩) [1] [0] [] [] [0] 1 ![1, D] wf).siIdx (ix2 p f) c = ixP p := by
      intro c
      funext b; refine Fin.ext ?_
      match b with
      | ⟨0, _⟩ => rfl
      | ⟨1, _⟩ => exact Nat.lt_one_iff.mp c.isLt
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ [0] by decide)]
    simp only [Nat.zero_add]
    rfl

/-- An update lands on operand index i exactly when, on every axis, its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro e a
      have e' := congrArg (fun g : s.Idx => (g a).val) (Option.some.inj e)
      simp only at e'
      have := h a
      omega
    · intro e
      congr 1
      funext a
      refine Fin.ext ?_
      have := e a
      simp only
      omega
  · next h =>
    constructor
    · intro e; cases e
    · intro e
      exfalso
      apply h
      intro a
      have := e a
      have := (i a).isLt
      omega

/-- An accumulating scatter into an [N] vector at an [n × 1] column of positions, at the exact instance: entry i is the
    target's entry plus the sum of the updates whose position, read signed, is i. -/
theorem scatterAdd_flat {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![n, 1]⟩ w) (upd : FVec Ideal ⟨1, ![n]⟩ .f32) (i : Fin N) :
    Host.scatterAdd (F := Ideal) d x idx upd (ix1 i)
      = x (ix1 i) + ∑ e ∈ Finset.univ.filter (fun e : Fin n => (idx (ixP e)).toInt = (i.val : ℤ)), upd (ix1 e) := by
  obtain ⟨uw, iw, sd, iv, wf⟩ := d
  dsimp only at huw hiw hsd hivd
  subst huw hiw hsd hivd
  have hstart : ∀ j : (⟨1, ![n]⟩ : Shape).Idx,
      (ScatterDims.mk (s := ⟨1, ![N]⟩) (si := ⟨2, ![n, 1]⟩) (u := ⟨1, ![n]⟩) [] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hwin : ∀ j : (⟨1, ![n]⟩ : Shape).Idx,
      (ScatterDims.mk (s := ⟨1, ![N]⟩) (si := ⟨2, ![n, 1]⟩) (u := ⟨1, ![n]⟩) [] [0] [0] 1 wf).window j 0 = 0 := by
    intro j
    unfold ScatterDims.window
    exact dif_neg (show (0 : Fin 1) ∉ (List.finRange 1).filter (fun a => a ∉ [(0 : Fin 1)]) by decide)
  have hiff : ∀ j : (⟨1, ![n]⟩ : Shape).Idx,
      (ScatterDims.mk (s := ⟨1, ![N]⟩) (si := ⟨2, ![n, 1]⟩) (u := ⟨1, ![n]⟩) [] [0] [0] 1 wf).resultIdx? j idx = some (ix1 i)
        ↔ (idx (ixP (j 0))).toInt = (i.val : ℤ) := by
    intro j
    rw [resultIdx?_eq_some_iff, Fin.forall_fin_one, hstart, hwin]
    simp
  show x (ix1 i) + _ = _
  congr 1
  refine Finset.sum_nbij' (fun j => j 0) (fun e => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg upd (eq_ix1 j)

/-- An accumulating scatter of [n × D] rows into the rows of an [N × D] matrix at an [n × 1] column of row positions, at
    the exact instance: entry (i, f) is the target's entry plus the sum, over the update rows whose position read signed
    is i, of their entry f. -/
theorem scatterAdd_rows {N D n w : ℕ} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : FVec Ideal ⟨2, ![N, D]⟩ .f32) (idx : IVec ⟨2, ![n, 1]⟩ w) (upd : FVec Ideal ⟨2, ![n, D]⟩ .f32) (i : Fin N) (f : Fin D) :
    Host.scatterAdd (F := Ideal) d x idx upd (ix2 i f)
      = x (ix2 i f) + ∑ e ∈ Finset.univ.filter (fun e : Fin n => (idx (ixP e)).toInt = (i.val : ℤ)), upd (ix2 e f) := by
  obtain ⟨uw, iw, sd, iv, wf⟩ := d
  dsimp only at huw hiw hsd hivd
  subst huw hiw hsd hivd
  have hstart0 : ∀ j : (⟨2, ![n, D]⟩ : Shape).Idx,
      (ScatterDims.mk (s := ⟨2, ![N, D]⟩) (si := ⟨2, ![n, 1]⟩) (u := ⟨2, ![n, D]⟩) [1] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hstart1 : ∀ j : (⟨2, ![n, D]⟩ : Shape).Idx,
      (ScatterDims.mk (s := ⟨2, ![N, D]⟩) (si := ⟨2, ![n, 1]⟩) (u := ⟨2, ![n, D]⟩) [1] [0] [0] 1 wf).start j idx 1 = 0 := by
    intro j
    unfold ScatterDims.start
    rw [dif_neg (show (1 : Fin 2) ∉ [0] by decide)]
  have hwin0 : ∀ j : (⟨2, ![n, D]⟩ : Shape).Idx,
      (ScatterDims.mk (s := ⟨2, ![N, D]⟩) (si := ⟨2, ![n, 1]⟩) (u := ⟨2, ![n, D]⟩) [1] [0] [0] 1 wf).window j 0 = 0 := by
    intro j
    unfold ScatterDims.window
    exact dif_neg (show (0 : Fin 2) ∉ (List.finRange 2).filter (fun a => a ∉ [(0 : Fin 2)]) by decide)
  have hwin1 : ∀ j : (⟨2, ![n, D]⟩ : Shape).Idx,
      (ScatterDims.mk (s := ⟨2, ![N, D]⟩) (si := ⟨2, ![n, 1]⟩) (u := ⟨2, ![n, D]⟩) [1] [0] [0] 1 wf).window j 1 = (j 1).val := by
    intro j
    unfold ScatterDims.window
    exact (dif_pos (show (1 : Fin 2) ∈ (List.finRange 2).filter (fun a => a ∉ [(0 : Fin 2)]) by decide)).trans rfl
  have hiff : ∀ j : (⟨2, ![n, D]⟩ : Shape).Idx,
      (ScatterDims.mk (s := ⟨2, ![N, D]⟩) (si := ⟨2, ![n, 1]⟩) (u := ⟨2, ![n, D]⟩) [1] [0] [0] 1 wf).resultIdx? j idx = some (ix2 i f)
        ↔ (idx (ixP (j 0))).toInt = (i.val : ℤ) ∧ j 1 = f := by
    intro j
    rw [resultIdx?_eq_some_iff, Fin.forall_fin_two, hstart0, hwin0, hstart1, hwin1]
    show (idx (ixP (j 0))).toInt + ((0 : ℕ) : ℤ) = (i.val : ℤ) ∧ (0 : ℤ) + ((j 1).val : ℤ) = (f.val : ℤ) ↔ _
    constructor
    · rintro ⟨h0, h1⟩
      exact ⟨by omega, Fin.ext (by omega)⟩
    · rintro ⟨h0, h1⟩
      subst h1
      exact ⟨by omega, by omega⟩
  show x (ix2 i f) + _ = _
  congr 1
  refine Finset.sum_nbij' (fun j => j 0) (fun e => ix2 e f) ?_ ?_ ?_ ?_ ?_
  · intro j hj
    exact Finset.mem_filter.2 ⟨Finset.mem_univ _, ((hiff j).1 (Finset.mem_filter.1 hj).2).1⟩
  · intro e he
    exact Finset.mem_filter.2 ⟨Finset.mem_univ _, (hiff (ix2 e f)).2 ⟨(Finset.mem_filter.1 he).2, rfl⟩⟩
  · intro j hj
    have h1 := ((hiff j).1 (Finset.mem_filter.1 hj).2).2
    rw [← h1]
    exact (eq_ix2 j).symm
  · intro e _
    rfl
  · intro j hj
    have h1 := ((hiff j).1 (Finset.mem_filter.1 hj).2).2
    rw [← h1]
    exact congrArg upd (eq_ix2 j)

end Cert.LibSG

end
-- ==== Proof.KPrefix.lean ====
/-
  What the host operations before the region leave in the three arrays the rest of the program reads: the gathered sender
  features, the gathered receiver features, and the receiver list padded for the final accumulation.
-/
import proofs.«428443_j28338194219042_3_alg».proof.Proof.EntryKI
import proofs.«428443_j28338194219042_3_alg».proof.Proof.Spec
import proofs.«428443_j28338194219042_3_alg».proof.Proof.LibScatterGather
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.KernelVsHost

noncomputable section

namespace Cert.KernelIdeal.Prefix

open Idealize.ShloMosaic Idealize.ShloMosaic.TcCoe Idealize.SL.Sem Idealize.ShloMosaic.ValueIdx
open Cert.KernelIdeal Cert.KernelIdeal.Gen Cert.KernelIdeal.Frame

variable (m : (ℓ : Loc nD τ sig) → Buf (Elt Ideal) ℓ) (c : Dev nD)

/-! ## The operations' composed terms, over the argument arrays -/

section Chain

/-- Row 0 (the receivers) and row 1 (the senders) of the edge list, each as a vector. -/
def edgeRow0 (edge : IVec S2x6400000 32) : IVec S6400000 32 :=
  shapeCast S6400000 (extractStridedSlice S1x6400000 ![0, 0] edge slices_S2x6400000_S1x6400000_0_0) shapeCasts_S1x6400000_S6400000
def edgeRow1 (edge : IVec S2x6400000 32) : IVec S6400000 32 :=
  shapeCast S6400000 (extractStridedSlice S1x6400000 ![1, 0] edge slices_S2x6400000_S1x6400000_1_0) shapeCasts_S1x6400000_S6400000

/-- A vector of 6400000 words followed by 22528 copies of the word b. -/
def padWith (v : IVec S6400000 32) (b : BitVec 32) : IVec S6422528 32 :=
  pad S6422528 ![0] ![22528] ![0] v (constantI S_ 32 b) pads_S6400000_S6422528_0225280 h_S_

/-- Every word kept inside [0, 99999], signed. -/
def clip (v : IVec S6422528 32) : IVec S6422528 32 :=
  minsi (broadcastInDim S6422528 ![] bcast_S_S6422528 (constantI S_ 32 99999#32))
    (maxsi (broadcastInDim S6422528 ![] bcast_S_S6422528 (constantI S_ 32 0#32)) v)

end Chain

section Chain2

/-- The column of gather positions of a take: a negative index counts from the end. -/
def takeIdx (v : IVec S6422528 32) : IVec S6422528x1 32 :=
  broadcastInDim S6422528x1 ![0] bcast_S6422528_S6422528x1_0
    (select (cmpi .slt v (broadcastInDim S6422528 ![] bcast_S_S6422528 (constantI S_ 32 0#32)))
      (addi v (broadcastInDim S6422528 ![] bcast_S_S6422528 (constantI S_ 32 100000#32))) v)

/-- Entry by entry, whether an index lies in [0, 99999]. -/
def rangeBits (i : IVec S6422528x1 32) : IVec S6422528x1 1 :=
  andi (cmpi .sge i (broadcastInDim S6422528x1 ![] bcast_S_S6422528x1 (constantI S_ 32 0#32)))
    (cmpi .sle i (broadcastInDim S6422528x1 ![0, 1] bcast_S1x1_S6422528x1_0_1
      (broadcastInDim S1x1 ![1] bcast_S1_S1x1_1 (constantI S1 32 99999#32))))

/-- The take's range test: position by position, whether the index lies in [0, 99999]. -/
def takeMask (i : IVec S6422528x1 32) : IVec S6422528 1 :=
  Host.reduce IntOp.andi (rangeBits i) (constantI S_ 1 1#1) reducesTo_S6422528x1_S6422528_d1 h_S_

/-- Columns of a five-row table taken at a list of indices; a column whose index is out of range is not-a-number. -/
def take5 (tab : FVec Ideal S5x100000 .f32) (v : IVec S6422528 32) : FVec Ideal S5x6422528 .f32 :=
  select (broadcastInDim S5x6422528 ![1] bcast_S6422528_S5x6422528_1 (takeMask (takeIdx v)))
    (Host.gather gather_S5x100000_S6422528x1_S5x6422528_0_1_n_n_1_1_51 tab (takeIdx v))
    (broadcastInDim S5x6422528 ![] bcast_S_S5x6422528 (constant (F := Ideal) S_ .f32 0x7FC00000#32))

/-- The same for a seven-row table. -/
def take7 (tab : FVec Ideal S7x100000 .f32) (v : IVec S6422528 32) : FVec Ideal S7x6422528 .f32 :=
  select (broadcastInDim S7x6422528 ![1] bcast_S6422528_S7x6422528_1 (takeMask (takeIdx v)))
    (Host.gather gather_S7x100000_S6422528x1_S7x6422528_0_1_n_n_1_1_71 tab (takeIdx v))
    (broadcastInDim S7x6422528 ![] bcast_S_S7x6422528 (constant (F := Ideal) S_ .f32 0x7FC00000#32))

/-- The sender table: position, velocity and field side by side, transposed to five rows. -/
def srcTab (pos vel : FVec Ideal S100000x2 .f32) (field : FVec Ideal S100000x1 .f32) : FVec Ideal S5x100000 .f32 :=
  transpose S5x100000 [1, 0]
    (concatenate S100000x5 1 [⟨S100000x2, pos⟩, ⟨S100000x2, vel⟩, ⟨S100000x1, field⟩]
      concatenates_S100000x2_S100000x2_S100000x1_S100000x5_d1)
    transposes_S100000x5_S5x100000_1_0

/-- Each node's type word, a negative one counting from the end of the sixteen rows. -/
def typeIdx (ptype : IVec S100000 32) : IVec S100000 32 :=
  select (cmpi .slt ptype (broadcastInDim S100000 ![] bcast_S_S100000 (constantI S_ 32 0#32)))
    (addi ptype (broadcastInDim S100000 ![] bcast_S_S100000 (constantI S_ 32 16#32))) ptype

/-- Each node's parameter row: the table's row at the node's type. -/
def typeRows (ptab : FVec Ideal S16x3 .f32) (ptype : IVec S100000 32) : FVec Ideal S100000x3 .f32 :=
  Host.gather gather_S16x3_S100000x1_S100000x3_1_0_n_n_0_1_13 ptab
    (broadcastInDim S100000x1 ![0] bcast_S100000_S100000x1_0 (typeIdx ptype))

/-- The receiver table: position, velocity and parameter row side by side, transposed to seven rows. -/
def dstTab (pos vel : FVec Ideal S100000x2 .f32) (ptab : FVec Ideal S16x3 .f32) (ptype : IVec S100000 32) :
    FVec Ideal S7x100000 .f32 :=
  transpose S7x100000 [1, 0]
    (concatenate S100000x7 1 [⟨S100000x2, pos⟩, ⟨S100000x2, vel⟩, ⟨S100000x3, typeRows ptab ptype⟩]
      concatenates_S100000x2_S100000x2_S100000x3_S100000x7_d1)
    transposes_S100000x7_S7x100000_1_0

end Chain2

section Nary3
open Idealize.ShloMosaic.StableHlo
variable {nD' : Nat} {τ' : Topo} {sig' : RefSig} {Val : EltTy → Type}

/-- An operation of three literal operands leaves, at its result, its function of the three operands' contents. -/
theorem nary3_result' {x a b y : Ref sig' .tc}
    (f : ((k : Fin 3) → ((![x, a, b] : Fin 3 → Ref sig' .tc) k).ty.Contents Val) → y.ty.Contents Val) (hxs hy)
    (F : Valuation τ' sig' Val) :
    (nary (τ := τ') ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

end Nary3
/-! ## Reading the composed terms at an index -/

theorem edgeRow0_apply (edge : IVec S2x6400000 32) (e : Fin 6400000) : edgeRow0 edge (ix1 e) = edge (ix2 (0 : Fin 2) e) := by
  unfold edgeRow0
  refine (shapeCast_apply _ shapeCasts_S1x6400000_S6400000 (ix1 e) (ix2 (0 : Fin 1) e) ?_).trans ?_
  · rw [Shape.rowMajor_val_two, Shape.rowMajor_val_one]
    show 0 * 6400000 + e.val = e.val
    omega
  · refine extractStridedSlice_apply _ _ slices_S2x6400000_S1x6400000_0_0 (ix2 (0 : Fin 1) e) (ix2 (0 : Fin 2) e) ?_
    intro a
    match a with
    | ⟨0, _⟩ => rfl
    | ⟨1, _⟩ => show e.val = 0 + e.val; omega

theorem edgeRow1_apply (edge : IVec S2x6400000 32) (e : Fin 6400000) : edgeRow1 edge (ix1 e) = edge (ix2 (1 : Fin 2) e) := by
  unfold edgeRow1
  refine (shapeCast_apply _ shapeCasts_S1x6400000_S6400000 (ix1 e) (ix2 (0 : Fin 1) e) ?_).trans ?_
  · rw [Shape.rowMajor_val_two, Shape.rowMajor_val_one]
    show 0 * 6400000 + e.val = e.val
    omega
  · refine extractStridedSlice_apply _ _ slices_S2x6400000_S1x6400000_1_0 (ix2 (0 : Fin 1) e) (ix2 (1 : Fin 2) e) ?_
    intro a
    match a with
    | ⟨0, _⟩ => rfl
    | ⟨1, _⟩ => show e.val = 0 + e.val; omega

theorem padWith_apply (v : IVec S6400000 32) (b : BitVec 32) (e : Fin 6422528) :
    padWith v b (ix1 e) = if h : e.val < 6400000 then v (ix1 (⟨e.val, h⟩ : Fin 6400000)) else b := by
  unfold padWith
  by_cases h : e.val < 6400000
  · rw [dif_pos h]
    refine pad_apply_of_inside _ _ _ _ _ pads_S6400000_S6422528_0225280 h_S_ (ix1 e) (ix1 (⟨e.val, h⟩ : Fin 6400000)) ?_
    intro a
    match a with
    | ⟨0, _⟩ => show e.val = 0 + e.val * (0 + 1); omega
  · rw [dif_neg h]
    refine (pad_apply_of_not_inside _ _ _ _ _ pads_S6400000_S6422528_0225280 h_S_ (ix1 e) (0 : Fin 1) ?_).trans rfl
    show ¬(0 ≤ e.val ∧ (e.val - 0) % (0 + 1) = 0 ∧ (e.val - 0) / (0 + 1) < 6400000)
    omega

/-! ## A gather of whole columns, and an all-ones reduction -/

open Idealize.ShloMosaic.StableHlo.Predicate in
/-- Columns gathered from an [R × N] matrix at an [n × 1] column of column numbers: entry (f, p) of the result is the matrix's
    entry (f, column p's number read signed and clamped into [0, N − 1]). -/
theorem gather_cols {α : Type} {R N n w : ℕ} (d : GatherDims ⟨2, ![R, N]⟩ ⟨2, ![n, 1]⟩ ⟨2, ![R, n]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (hss : d.sliceSizes = ![R, 1])
    (x : (⟨2, ![R, N]⟩ : Shape).Idx → α) (idx : IVec ⟨2, ![n, 1]⟩ w) (f : Fin R) (p : Fin n) (hN : 0 < N) :
    Host.gather d x idx (ix2 f p) = x (ix2 f (⟨min (idx (ixP p)).toInt.toNat (N - 1), by omega⟩ : Fin N)) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil]
    unfold GatherDims.start
    rw [dif_neg (show (0 : Fin 2) ∉ [1] by decide)]
    simp only [Nat.zero_add]
    rfl
  | ⟨1, _⟩ =>
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨2, ![R, N]⟩) (si := ⟨2, ![n, 1]⟩) (t := ⟨2, ![R, n]⟩) [0] [1] [] [] [1] 1 ![R, 1] wf).siIdx (ix2 f p) c = ixP p := by
      intro c
      funext b; refine Fin.ext ?_
      match b with
      | ⟨0, _⟩ => rfl
      | ⟨1, _⟩ => exact Nat.lt_one_iff.mp c.isLt
    rw [hsi]
    rfl

/-- A fold of the one-bit "and" over words that are all 1, from 1, is 1. -/
theorem fold_andi_one {ι : Type} [DecidableEq ι] (S : Finset ι) (x : ι → BitVec 1) (hx : ∀ i ∈ S, x i = 1#1) :
    S.fold IntOp.andi 1#1 x = 1#1 := by
  induction S using Finset.induction_on with
  | empty => rfl
  | insert a S ha ih =>
    rw [Finset.fold_insert ha, hx a (Finset.mem_insert_self _ _), ih (fun i hi => hx i (Finset.mem_insert_of_mem hi))]
    rfl

/-! ## Words: a node number survives the clamp, the wrap of a negative index and the range test -/

theorem clip_word (w : BitVec 32) (h0 : 0 ≤ w.toInt) (h1 : w.toInt < 100000) :
    IntOp.minsi 99999#32 (IntOp.maxsi 0#32 w) = w := by
  have e0 : (0#32 : BitVec 32).toInt = 0 := by decide
  have e9 : (99999#32 : BitVec 32).toInt = 99999 := by decide
  have hmax : IntOp.maxsi 0#32 w = w := by
    unfold IntOp.maxsi
    rw [if_neg]
    rw [BitVec.slt_iff_toInt_lt, e0]; omega
  rw [hmax]
  unfold IntOp.minsi
  rw [if_neg]
  rw [BitVec.slt_iff_toInt_lt, e9]; omega

theorem wrap_word (w : BitVec 32) (h0 : 0 ≤ w.toInt) :
    Scalar.select (IntOp.cmpi .slt w 0#32) (IntOp.addi w 100000#32) w = w := by
  have e0 : (0#32 : BitVec 32).toInt = 0 := by decide
  have hc : IntOp.cmpi .slt w 0#32 = 0#1 := by
    apply eq_zero_of_ne_one
    rw [IntOp.cmpi_slt, e0]; omega
  rw [hc, select_zero]

theorem range_word (w : BitVec 32) (h0 : 0 ≤ w.toInt) (h1 : w.toInt < 100000) :
    IntOp.andi (IntOp.cmpi .sge w 0#32) (IntOp.cmpi .sle w 99999#32) = 1#1 := by
  have e0 : (0#32 : BitVec 32).toInt = 0 := by decide
  have e9 : (99999#32 : BitVec 32).toInt = 99999 := by decide
  have ha : IntOp.cmpi .sge w 0#32 = 1#1 := by rw [IntOp.cmpi_sge, e0]; exact h0
  have hb : IntOp.cmpi .sle w 99999#32 = 1#1 := by rw [IntOp.cmpi_sle, e9]; omega
  rw [ha, hb]; rfl

/-- A transport along an equation of types and back is the identity. -/
theorem cast_pair {α β : Type} (h1 : β = α) (h2 : α = β) (a : α) : cast h1 (cast h2 a) = a := by
  subst h2; rfl

/-- The two takes from their three parts. -/
theorem take5_eq_of (tab : FVec Ideal S5x100000 .f32) (v : IVec S6422528 32) (M : IVec S6422528x1 1)
    (G N : FVec Ideal S5x6422528 .f32) (hM : M = rangeBits (takeIdx v))
    (hG : G = Host.gather gather_S5x100000_S6422528x1_S5x6422528_0_1_n_n_1_1_51 tab (takeIdx v))
    (hN : N = broadcastInDim S5x6422528 ![] bcast_S_S5x6422528 (constant (F := Ideal) S_ .f32 0x7FC00000#32)) :
    select (broadcastInDim S5x6422528 ![1] bcast_S6422528_S5x6422528_1
        (Host.reduce IntOp.andi M (constantI S_ 1 1#1) reducesTo_S6422528x1_S6422528_d1 h_S_)) G N = take5 tab v := by
  subst hM hG hN; rfl

theorem take7_eq_of (tab : FVec Ideal S7x100000 .f32) (v : IVec S6422528 32) (M : IVec S6422528x1 1)
    (G N : FVec Ideal S7x6422528 .f32) (hM : M = rangeBits (takeIdx v))
    (hG : G = Host.gather gather_S7x100000_S6422528x1_S7x6422528_0_1_n_n_1_1_71 tab (takeIdx v))
    (hN : N = broadcastInDim S7x6422528 ![] bcast_S_S7x6422528 (constant (F := Ideal) S_ .f32 0x7FC00000#32)) :
    select (broadcastInDim S7x6422528 ![1] bcast_S6422528_S7x6422528_1
        (Host.reduce IntOp.andi M (constantI S_ 1 1#1) reducesTo_S6422528x1_S6422528_d1 h_S_)) G N = take7 tab v := by
  subst hM hG hN; rfl

/-! ## The operations in four stretches

The operations before the region are run as four stretches in a row; each stretch is read over the contents A it starts
from, whatever they are. -/

section Stretches

/-- The second stretch: the three paddings and the two clamps. -/
abbrev midOps : List (HloOp τ sig (Elt Ideal)) :=
  hostOps0_1 ++ (hostOps0_2 ++ (hostOps0_3 ++ (hostOps0_4 ++ (hostOps0_5 ++ (hostOps0_6 ++ (hostOps0_7 ++ (hostOps0_8 ++ hostOps0_9)))))))

theorem preOps_split : List.flatten (preOps (F := Ideal)) = hostOps0 ++ (midOps ++ (hostOps0_10 ++ hostOps0_11)) := by
  simp only [preOps, midOps, List.flatten_cons, List.flatten_nil, List.append_nil, List.append_assoc]

theorem V0_split : V0 m c
    = StableHlo.after hostOps0_11 (StableHlo.after hostOps0_10 (StableHlo.after midOps (StableHlo.after hostOps0 (fun b => m (c, b))))) := by
  show StableHlo.after (List.flatten preOps) _ = _
  rw [preOps_split, StableHlo.after_append, StableHlo.after_append, StableHlo.after_append]

variable (A : Valuation τ sig (Elt Ideal))

/-! ### First stretch: the two rows of the edge list and the two tables -/

theorem s0_v1 : StableHlo.after hostOps0 (fun b => m (c, b)) (Proc.devRef .tc main_v1) = edgeRow0 (m ((c : Thread nD τ).loc main_arg5)) := by
  simp only [hostOps0]
  simp (disch := decide) only [StableHlo.after_cons, StableHlo.after_nil, StableHlo.nullary_result', StableHlo.unary_result', StableHlo.binary_result', StableHlo.ternary_result', StableHlo.reshape_result', nary3_result', StableHlo.nullary_result_ne', StableHlo.unary_result_ne', StableHlo.binary_result_ne', StableHlo.ternary_result_ne', StableHlo.reshape_result_ne', StableHlo.nary_result_ne']
  rfl

theorem s0_v3 : StableHlo.after hostOps0 (fun b => m (c, b)) (Proc.devRef .tc main_v3) = edgeRow1 (m ((c : Thread nD τ).loc main_arg5)) := by
  simp only [hostOps0]
  simp (disch := decide) only [StableHlo.after_cons, StableHlo.after_nil, StableHlo.nullary_result', StableHlo.unary_result', StableHlo.binary_result', StableHlo.ternary_result', StableHlo.reshape_result', nary3_result', StableHlo.nullary_result_ne', StableHlo.unary_result_ne', StableHlo.binary_result_ne', StableHlo.ternary_result_ne', StableHlo.reshape_result_ne', StableHlo.nary_result_ne']
  rfl

theorem s0_v12 : StableHlo.after hostOps0 (fun b => m (c, b)) (Proc.devRef .tc main_v12)
    = srcTab (m ((c : Thread nD τ).loc main_arg0)) (m ((c : Thread nD τ).loc main_arg1)) (m ((c : Thread nD τ).loc main_arg3)) := by
  simp only [hostOps0]
  simp (disch := decide) only [StableHlo.after_cons, StableHlo.after_nil, StableHlo.nullary_result', StableHlo.unary_result', StableHlo.binary_result', StableHlo.ternary_result', StableHlo.reshape_result', nary3_result', StableHlo.nullary_result_ne', StableHlo.unary_result_ne', StableHlo.binary_result_ne', StableHlo.ternary_result_ne', StableHlo.reshape_result_ne', StableHlo.nary_result_ne']
  rfl

theorem s0_v14 : StableHlo.after hostOps0 (fun b => m (c, b)) (Proc.devRef .tc main_v14)
    = dstTab (m ((c : Thread nD τ).loc main_arg0)) (m ((c : Thread nD τ).loc main_arg1)) (m ((c : Thread nD τ).loc main_arg2))
        (m ((c : Thread nD τ).loc main_arg4)) := by
  simp only [hostOps0]
  simp (disch := decide) only [StableHlo.after_cons, StableHlo.after_nil, StableHlo.nullary_result', StableHlo.unary_result', StableHlo.binary_result', StableHlo.ternary_result', StableHlo.reshape_result', nary3_result', StableHlo.nullary_result_ne', StableHlo.unary_result_ne', StableHlo.binary_result_ne', StableHlo.ternary_result_ne', StableHlo.reshape_result_ne', StableHlo.nary_result_ne']
  rfl

theorem s0_c1 : StableHlo.after hostOps0 (fun b => m (c, b)) (Proc.devRef .tc main_c_1) = constantI S_ 32 0#32 := by
  simp only [hostOps0]
  simp (disch := decide) only [StableHlo.after_cons, StableHlo.after_nil, StableHlo.nullary_result', StableHlo.unary_result', StableHlo.binary_result', StableHlo.ternary_result', StableHlo.reshape_result', nary3_result', StableHlo.nullary_result_ne', StableHlo.unary_result_ne', StableHlo.binary_result_ne', StableHlo.ternary_result_ne', StableHlo.reshape_result_ne', StableHlo.nary_result_ne']

/-! ### Second stretch: paddings and clamps; the tables are left as they were -/

theorem s1_v17 : StableHlo.after midOps A (Proc.devRef .tc main_v17) = padWith (A (Proc.devRef .tc main_v1)) 100000#32 := by
  simp only [midOps, hostOps0_1, hostOps0_2, hostOps0_3, hostOps0_4, hostOps0_5, hostOps0_6, hostOps0_7, hostOps0_8, hostOps0_9, List.cons_append, List.nil_append]
  simp (disch := decide) only [StableHlo.after_cons, StableHlo.after_nil, StableHlo.nullary_result', StableHlo.unary_result', StableHlo.binary_result', StableHlo.ternary_result', StableHlo.reshape_result', nary3_result', StableHlo.nullary_result_ne', StableHlo.unary_result_ne', StableHlo.binary_result_ne', StableHlo.ternary_result_ne', StableHlo.reshape_result_ne', StableHlo.nary_result_ne']
  simp only [StableHlo.TRef.ofBuf, StableHlo.TRef.toBuf, cast_pair, id_eq]
  rfl

theorem s1_v18 : StableHlo.after midOps A (Proc.devRef .tc main_v18)
    = clip (pad S6422528 ![0] ![22528] ![0] (A (Proc.devRef .tc main_v3)) (A (Proc.devRef .tc main_c_1)) pads_S6400000_S6422528_0225280 h_S_) := by
  simp only [midOps, hostOps0_1, hostOps0_2, hostOps0_3, hostOps0_4, hostOps0_5, hostOps0_6, hostOps0_7, hostOps0_8, hostOps0_9, List.cons_append, List.nil_append]
  simp (disch := decide) only [StableHlo.after_cons, StableHlo.after_nil, StableHlo.nullary_result', StableHlo.unary_result', StableHlo.binary_result', StableHlo.ternary_result', StableHlo.reshape_result', nary3_result', StableHlo.nullary_result_ne', StableHlo.unary_result_ne', StableHlo.binary_result_ne', StableHlo.ternary_result_ne', StableHlo.reshape_result_ne', StableHlo.nary_result_ne']
  simp only [StableHlo.TRef.ofBuf, StableHlo.TRef.toBuf, cast_pair, id_eq]
  rfl

theorem s1_v19 : StableHlo.after midOps A (Proc.devRef .tc main_v19) = clip (padWith (A (Proc.devRef .tc main_v1)) 0#32) := by
  simp only [midOps, hostOps0_1, hostOps0_2, hostOps0_3, hostOps0_4, hostOps0_5, hostOps0_6, hostOps0_7, hostOps0_8, hostOps0_9, List.cons_append, List.nil_append]
  simp (disch := decide) only [StableHlo.after_cons, StableHlo.after_nil, StableHlo.nullary_result', StableHlo.unary_result', StableHlo.binary_result', StableHlo.ternary_result', StableHlo.reshape_result', nary3_result', StableHlo.nullary_result_ne', StableHlo.unary_result_ne', StableHlo.binary_result_ne', StableHlo.ternary_result_ne', StableHlo.reshape_result_ne', StableHlo.nary_result_ne']
  simp only [StableHlo.TRef.ofBuf, StableHlo.TRef.toBuf, cast_pair, id_eq]
  rfl

theorem s1_v12 : StableHlo.after midOps A (Proc.devRef .tc main_v12) = A (Proc.devRef .tc main_v12) := by
  simp only [midOps, hostOps0_1, hostOps0_2, hostOps0_3, hostOps0_4, hostOps0_5, hostOps0_6, hostOps0_7, hostOps0_8, hostOps0_9, List.cons_append, List.nil_append]
  simp (disch := decide) only [StableHlo.after_cons, StableHlo.after_nil, StableHlo.nullary_result', StableHlo.unary_result', StableHlo.binary_result', StableHlo.ternary_result', StableHlo.reshape_result', nary3_result', StableHlo.nullary_result_ne', StableHlo.unary_result_ne', StableHlo.binary_result_ne', StableHlo.ternary_result_ne', StableHlo.reshape_result_ne', StableHlo.nary_result_ne']

theorem s1_v14 : StableHlo.after midOps A (Proc.devRef .tc main_v14) = A (Proc.devRef .tc main_v14) := by
  simp only [midOps, hostOps0_1, hostOps0_2, hostOps0_3, hostOps0_4, hostOps0_5, hostOps0_6, hostOps0_7, hostOps0_8, hostOps0_9, List.cons_append, List.nil_append]
  simp (disch := decide) only [StableHlo.after_cons, StableHlo.after_nil, StableHlo.nullary_result', StableHlo.unary_result', StableHlo.binary_result', StableHlo.ternary_result', StableHlo.reshape_result', nary3_result', StableHlo.nullary_result_ne', StableHlo.unary_result_ne', StableHlo.binary_result_ne', StableHlo.ternary_result_ne', StableHlo.reshape_result_ne', StableHlo.nary_result_ne']

/-! ### Third stretch: the take from the sender table -/

theorem s2_v20 : StableHlo.after hostOps0_10 A (Proc.devRef .tc main_v20)
    = take5 (A (Proc.devRef .tc main_v12)) (A (Proc.devRef .tc main_v18)) := by
  simp only [hostOps0_10]
  simp (disch := decide) only [StableHlo.after_cons, StableHlo.after_nil, StableHlo.nullary_result', StableHlo.unary_result', StableHlo.binary_result', StableHlo.ternary_result', StableHlo.reshape_result', nary3_result', StableHlo.nullary_result_ne', StableHlo.unary_result_ne', StableHlo.binary_result_ne', StableHlo.ternary_result_ne', StableHlo.reshape_result_ne', StableHlo.nary_result_ne']
  simp only [StableHlo.TRef.ofBuf, StableHlo.TRef.toBuf, cast_pair, id_eq]
  refine (cast_eq _ _).trans ?_
  exact take5_eq_of _ _ _ _ _ rfl rfl rfl

theorem s2_v14 : StableHlo.after hostOps0_10 A (Proc.devRef .tc main_v14) = A (Proc.devRef .tc main_v14) := by
  simp only [hostOps0_10]
  simp (disch := decide) only [StableHlo.after_cons, StableHlo.after_nil, StableHlo.nullary_result', StableHlo.unary_result', StableHlo.binary_result', StableHlo.ternary_result', StableHlo.reshape_result', nary3_result', StableHlo.nullary_result_ne', StableHlo.unary_result_ne', StableHlo.binary_result_ne', StableHlo.ternary_result_ne', StableHlo.reshape_result_ne', StableHlo.nary_result_ne']

theorem s2_v19 : StableHlo.after hostOps0_10 A (Proc.devRef .tc main_v19) = A (Proc.devRef .tc main_v19) := by
  simp only [hostOps0_10]
  simp (disch := decide) only [StableHlo.after_cons, StableHlo.after_nil, StableHlo.nullary_result', StableHlo.unary_result', StableHlo.binary_result', StableHlo.ternary_result', StableHlo.reshape_result', nary3_result', StableHlo.nullary_result_ne', StableHlo.unary_result_ne', StableHlo.binary_result_ne', StableHlo.ternary_result_ne', StableHlo.reshape_result_ne', StableHlo.nary_result_ne']

theorem s2_v17 : StableHlo.after hostOps0_10 A (Proc.devRef .tc main_v17) = A (Proc.devRef .tc main_v17) := by
  simp only [hostOps0_10]
  simp (disch := decide) only [StableHlo.after_cons, StableHlo.after_nil, StableHlo.nullary_result', StableHlo.unary_result', StableHlo.binary_result', StableHlo.ternary_result', StableHlo.reshape_result', nary3_result', StableHlo.nullary_result_ne', StableHlo.unary_result_ne', StableHlo.binary_result_ne', StableHlo.ternary_result_ne', StableHlo.reshape_result_ne', StableHlo.nary_result_ne']

/-! ### Fourth stretch: the take from the receiver table -/

theorem s3_v21 : StableHlo.after hostOps0_11 A (Proc.devRef .tc main_v21)
    = take7 (A (Proc.devRef .tc main_v14)) (A (Proc.devRef .tc main_v19)) := by
  simp only [hostOps0_11]
  simp (disch := decide) only [StableHlo.after_cons, StableHlo.after_nil, StableHlo.nullary_result', StableHlo.unary_result', StableHlo.binary_result', StableHlo.ternary_result', StableHlo.reshape_result', nary3_result', StableHlo.nullary_result_ne', StableHlo.unary_result_ne', StableHlo.binary_result_ne', StableHlo.ternary_result_ne', StableHlo.reshape_result_ne', StableHlo.nary_result_ne']
  simp only [StableHlo.TRef.ofBuf, StableHlo.TRef.toBuf, cast_pair, id_eq]
  refine (cast_eq _ _).trans ?_
  exact take7_eq_of _ _ _ _ _ rfl rfl rfl

theorem s3_v20 : StableHlo.after hostOps0_11 A (Proc.devRef .tc main_v20) = A (Proc.devRef .tc main_v20) := by
  simp only [hostOps0_11]
  simp (disch := decide) only [StableHlo.after_cons, StableHlo.after_nil, StableHlo.nullary_result', StableHlo.unary_result', StableHlo.binary_result', StableHlo.ternary_result', StableHlo.reshape_result', nary3_result', StableHlo.nullary_result_ne', StableHlo.unary_result_ne', StableHlo.binary_result_ne', StableHlo.ternary_result_ne', StableHlo.reshape_result_ne', StableHlo.nary_result_ne']

theorem s3_v17 : StableHlo.after hostOps0_11 A (Proc.devRef .tc main_v17) = A (Proc.devRef .tc main_v17) := by
  simp only [hostOps0_11]
  simp (disch := decide) only [StableHlo.after_cons, StableHlo.after_nil, StableHlo.nullary_result', StableHlo.unary_result', StableHlo.binary_result', StableHlo.ternary_result', StableHlo.reshape_result', nary3_result', StableHlo.nullary_result_ne', StableHlo.unary_result_ne', StableHlo.binary_result_ne', StableHlo.ternary_result_ne', StableHlo.reshape_result_ne', StableHlo.nary_result_ne']

end Stretches

/-! ## The buffers as composed terms -/

theorem v17_eq : V m c main_v17 = padWith (edgeRow0 (m ((c : Thread nD τ).loc main_arg5))) 100000#32 := by
  show V0 m c (Proc.devRef .tc main_v17) = _
  rw [V0_split, s3_v17, s2_v17, s1_v17, s0_v1]

theorem v20_eq : V m c main_v20
    = take5 (srcTab (m ((c : Thread nD τ).loc main_arg0)) (m ((c : Thread nD τ).loc main_arg1)) (m ((c : Thread nD τ).loc main_arg3)))
        (clip (padWith (edgeRow1 (m ((c : Thread nD τ).loc main_arg5))) 0#32)) := by
  show V0 m c (Proc.devRef .tc main_v20) = _
  rw [V0_split, s3_v20, s2_v20, s1_v12, s1_v18, s0_v12, s0_v3, s0_c1]
  rfl

theorem v21_eq : V m c main_v21
    = take7 (dstTab (m ((c : Thread nD τ).loc main_arg0)) (m ((c : Thread nD τ).loc main_arg1)) (m ((c : Thread nD τ).loc main_arg2))
          (m ((c : Thread nD τ).loc main_arg4)))
        (clip (padWith (edgeRow0 (m ((c : Thread nD τ).loc main_arg5))) 0#32)) := by
  show V0 m c (Proc.devRef .tc main_v21) = _
  rw [V0_split, s3_v21, s2_v14, s2_v19, s1_v14, s1_v19, s0_v14, s0_v1]

/-! ## The take read at a column -/

open Idealize.ShloMosaic.StableHlo.Predicate in
theorem clip_apply (v : IVec S6422528 32) (e : Fin 6422528) :
    clip v (ix1 e) = IntOp.minsi 99999#32 (IntOp.maxsi 0#32 (v (ix1 e))) := rfl

open Idealize.ShloMosaic.StableHlo.Predicate in
theorem takeIdx_apply (v : IVec S6422528 32) (e : Fin 6422528) :
    takeIdx v (ixP e)
      = Scalar.select (IntOp.cmpi .slt (v (ix1 e)) 0#32) (IntOp.addi (v (ix1 e)) 100000#32) (v (ix1 e)) := by
  unfold takeIdx
  refine (broadcastInDim_apply _ bcast_S6422528_S6422528x1_0 _ (ixP e) (ix1 e) ?_).trans rfl
  intro a
  match a with
  | ⟨0, _⟩ => rfl

open Idealize.ShloMosaic.StableHlo.Predicate in
/-- Where the index lies in [0, 99999] the range test is 1. -/
theorem takeMask_one (i : IVec S6422528x1 32) (e : Fin 6422528) (h0 : 0 ≤ (i (ixP e)).toInt) (h1 : (i (ixP e)).toInt < 100000) :
    takeMask i (ix1 e) = 1#1 := by
  unfold takeMask
  rw [Host.reduce_eq_fold]
  refine fold_andi_one _ _ ?_
  intro k hk
  have hd := (Finset.mem_filter.1 hk).2
  have hk' : k = ixP e := by
    funext b; refine Fin.ext ?_
    match b with
    | ⟨0, _⟩ => exact congrArg (fun g : S6422528.Idx => (g 0).val) hd
    | ⟨1, _⟩ =>
      have h : (k 1).val < 1 := (k 1).isLt
      show (k 1).val = 0
      omega
  rw [hk']
  exact range_word _ h0 h1

open Idealize.ShloMosaic.StableHlo.Predicate in
/-- A take from a five-row table at an index that is a node number reads that node's column. -/
theorem take5_apply (tab : FVec Ideal S5x100000 .f32) (v : IVec S6422528 32) (f : Fin 5) (e : Fin 6422528)
    (h0 : 0 ≤ (v (ix1 e)).toInt) (h1 : (v (ix1 e)).toInt < 100000) :
    take5 tab v (ix2 f e) = tab (ix2 f (Cert.Spec.node (v (ix1 e)))) := by
  have hi : takeIdx v (ixP e) = v (ix1 e) := (takeIdx_apply v e).trans (wrap_word _ h0)
  have hm : broadcastInDim S5x6422528 ![1] bcast_S6422528_S5x6422528_1 (takeMask (takeIdx v)) (ix2 f e) = 1#1 := by
    refine (broadcastInDim_apply _ bcast_S6422528_S5x6422528_1 _ (ix2 f e) (ix1 e) ?_).trans
      (takeMask_one _ e (by rw [hi]; exact h0) (by rw [hi]; exact h1))
    intro a
    match a with
    | ⟨0, _⟩ => rfl
  unfold take5
  rw [select_apply, hm, select_one]
  refine (gather_cols _ rfl rfl rfl rfl rfl rfl rfl tab (takeIdx v) f e (by decide)).trans ?_
  refine congrArg tab ?_
  funext a; refine Fin.ext ?_
  match a with
  | ⟨0, _⟩ => rfl
  | ⟨1, _⟩ =>
    show min (takeIdx v (ixP e)).toInt.toNat (100000 - 1) = min (v (ix1 e)).toInt.toNat 99999
    rw [hi]

open Idealize.ShloMosaic.StableHlo.Predicate in
/-- The same from a seven-row table. -/
theorem take7_apply (tab : FVec Ideal S7x100000 .f32) (v : IVec S6422528 32) (f : Fin 7) (e : Fin 6422528)
    (h0 : 0 ≤ (v (ix1 e)).toInt) (h1 : (v (ix1 e)).toInt < 100000) :
    take7 tab v (ix2 f e) = tab (ix2 f (Cert.Spec.node (v (ix1 e)))) := by
  have hi : takeIdx v (ixP e) = v (ix1 e) := (takeIdx_apply v e).trans (wrap_word _ h0)
  have hm : broadcastInDim S7x6422528 ![1] bcast_S6422528_S7x6422528_1 (takeMask (takeIdx v)) (ix2 f e) = 1#1 := by
    refine (broadcastInDim_apply _ bcast_S6422528_S7x6422528_1 _ (ix2 f e) (ix1 e) ?_).trans
      (takeMask_one _ e (by rw [hi]; exact h0) (by rw [hi]; exact h1))
    intro a
    match a with
    | ⟨0, _⟩ => rfl
  unfold take7
  rw [select_apply, hm, select_one]
  refine (gather_cols _ rfl rfl rfl rfl rfl rfl rfl tab (takeIdx v) f e (by decide)).trans ?_
  refine congrArg tab ?_
  funext a; refine Fin.ext ?_
  match a with
  | ⟨0, _⟩ => rfl
  | ⟨1, _⟩ =>
    show min (takeIdx v (ixP e)).toInt.toNat (100000 - 1) = min (v (ix1 e)).toInt.toNat 99999
    rw [hi]

/-! ## The two tables read at a node -/

theorem srcTab_apply (pos vel : FVec Ideal S100000x2 .f32) (field : FVec Ideal S100000x1 .f32) (f : Fin 5) (s : Fin 100000) :
    srcTab pos vel field (ix2 f s) = Cert.Spec.srcRow pos vel field s f := by
  unfold srcTab
  refine (transpose_apply _ _ transposes_S100000x5_S5x100000_1_0 (ix2 f s) (ix2 s f) ?_).trans ?_
  · intro b
    match b with
    | ⟨0, _⟩ => rfl
    | ⟨1, _⟩ => rfl
  unfold Cert.Spec.srcRow
  by_cases h : f.val < 2
  · rw [dif_pos h]
    refine concatenate_apply_piece (1 : Fin S100000x5.rank) [⟨S100000x2, pos⟩, ⟨S100000x2, vel⟩, ⟨S100000x1, field⟩]
      concatenates_S100000x2_S100000x2_S100000x1_S100000x5_d1 (ix2 s f) 0 (by show 0 < 3; omega)
      S100000x2 pos rfl rfl 0 rfl (ix2 s (⟨f.val, h⟩ : Fin 2)) ?_ ?_
    · intro b hb
      match b with
      | ⟨0, _⟩ => rfl
      | ⟨1, _⟩ => exact (hb (Fin.ext rfl)).elim
    · show 0 + f.val = f.val
      omega
  · rw [dif_neg h]
    by_cases h2 : f.val < 4
    · rw [dif_pos h2]
      refine concatenate_apply_piece (1 : Fin S100000x5.rank) [⟨S100000x2, pos⟩, ⟨S100000x2, vel⟩, ⟨S100000x1, field⟩]
        concatenates_S100000x2_S100000x2_S100000x1_S100000x5_d1 (ix2 s f) 1 (by show 1 < 3; omega)
        S100000x2 vel rfl rfl 2 rfl (ix2 s (⟨f.val - 2, by omega⟩ : Fin 2)) ?_ ?_
      · intro b hb
        match b with
        | ⟨0, _⟩ => rfl
        | ⟨1, _⟩ => exact (hb (Fin.ext rfl)).elim
      · show 2 + (f.val - 2) = f.val
        omega
    · rw [dif_neg h2]
      refine concatenate_apply_piece (1 : Fin S100000x5.rank) [⟨S100000x2, pos⟩, ⟨S100000x2, vel⟩, ⟨S100000x1, field⟩]
        concatenates_S100000x2_S100000x2_S100000x1_S100000x5_d1 (ix2 s f) 2 (by show 2 < 3; omega)
        S100000x1 field rfl rfl 4 rfl (ix2 s (0 : Fin 1)) ?_ ?_
      · intro b hb
        match b with
        | ⟨0, _⟩ => rfl
        | ⟨1, _⟩ => exact (hb (Fin.ext rfl)).elim
      · have := f.isLt
        show 4 + 0 = f.val
        omega

open Idealize.ShloMosaic.StableHlo.Predicate in
theorem typeRows_apply (ptab : FVec Ideal S16x3 .f32) (ptype : IVec S100000 32) (d : Fin 100000) (b : Fin 3) :
    typeRows ptab ptype (ix2 d b) = ptab (ix2 (Cert.Spec.typeRow (ptype (ix1 d))) b) := by
  have hb : broadcastInDim S100000x1 ![0] bcast_S100000_S100000x1_0 (typeIdx ptype) (ixP d) = typeIdx ptype (ix1 d) :=
    broadcastInDim_apply _ bcast_S100000_S100000x1_0 _ (ixP d) (ix1 d) (fun a => match a with | ⟨0, _⟩ => rfl)
  unfold typeRows
  refine (Cert.LibSG.gather_rows _ rfl rfl rfl rfl rfl rfl rfl ptab _ d b (by decide)).trans ?_
  refine congrArg ptab ?_
  funext a; refine Fin.ext ?_
  match a with
  | ⟨0, _⟩ =>
    show min (broadcastInDim S100000x1 ![0] bcast_S100000_S100000x1_0 (typeIdx ptype) (ixP d)).toInt.toNat (16 - 1)
      = (Cert.Spec.typeRow (ptype (ix1 d))).val
    rw [hb]
    rfl
  | ⟨1, _⟩ => rfl

theorem dstTab_apply (pos vel : FVec Ideal S100000x2 .f32) (ptab : FVec Ideal S16x3 .f32) (ptype : IVec S100000 32) (f : Fin 7)
    (d : Fin 100000) : dstTab pos vel ptab ptype (ix2 f d) = Cert.Spec.dstRow pos vel ptab ptype d f := by
  unfold dstTab
  refine (transpose_apply _ _ transposes_S100000x7_S7x100000_1_0 (ix2 f d) (ix2 d f) ?_).trans ?_
  · intro b
    match b with
    | ⟨0, _⟩ => rfl
    | ⟨1, _⟩ => rfl
  unfold Cert.Spec.dstRow
  by_cases h : f.val < 2
  · rw [dif_pos h]
    refine concatenate_apply_piece (1 : Fin S100000x7.rank) [⟨S100000x2, pos⟩, ⟨S100000x2, vel⟩, ⟨S100000x3, typeRows ptab ptype⟩]
      concatenates_S100000x2_S100000x2_S100000x3_S100000x7_d1 (ix2 d f) 0 (by show 0 < 3; omega)
      S100000x2 pos rfl rfl 0 rfl (ix2 d (⟨f.val, h⟩ : Fin 2)) ?_ ?_
    · intro b hb
      match b with
      | ⟨0, _⟩ => rfl
      | ⟨1, _⟩ => exact (hb (Fin.ext rfl)).elim
    · show 0 + f.val = f.val
      omega
  · rw [dif_neg h]
    by_cases h2 : f.val < 4
    · rw [dif_pos h2]
      refine concatenate_apply_piece (1 : Fin S100000x7.rank) [⟨S100000x2, pos⟩, ⟨S100000x2, vel⟩, ⟨S100000x3, typeRows ptab ptype⟩]
        concatenates_S100000x2_S100000x2_S100000x3_S100000x7_d1 (ix2 d f) 1 (by show 1 < 3; omega)
        S100000x2 vel rfl rfl 2 rfl (ix2 d (⟨f.val - 2, by omega⟩ : Fin 2)) ?_ ?_
      · intro b hb
        match b with
        | ⟨0, _⟩ => rfl
        | ⟨1, _⟩ => exact (hb (Fin.ext rfl)).elim
      · show 2 + (f.val - 2) = f.val
        omega
    · rw [dif_neg h2]
      refine (concatenate_apply_piece (1 : Fin S100000x7.rank) [⟨S100000x2, pos⟩, ⟨S100000x2, vel⟩, ⟨S100000x3, typeRows ptab ptype⟩]
        concatenates_S100000x2_S100000x2_S100000x3_S100000x7_d1 (ix2 d f) 2 (by show 2 < 3; omega)
        S100000x3 (typeRows ptab ptype) rfl rfl 4 rfl (ix2 d (⟨f.val - 4, by have := f.isLt; omega⟩ : Fin 3)) ?_ ?_).trans
        (typeRows_apply ptab ptype d _)
      · intro b hb
        match b with
        | ⟨0, _⟩ => rfl
        | ⟨1, _⟩ => exact (hb (Fin.ext rfl)).elim
      · show 4 + (f.val - 4) = f.val
        omega

/-! ## The three buffers -/

/-- A sender or receiver word below the padding survives the padding with 0 and the clamp. -/
theorem clip_pad_apply (v : IVec S6400000 32) (e : Fin 6422528) (he : e.val < 6400000)
    (h0 : 0 ≤ (v (ix1 (⟨e.val, he⟩ : Fin 6400000))).toInt) (h1 : (v (ix1 (⟨e.val, he⟩ : Fin 6400000))).toInt < 100000) :
    clip (padWith v 0#32) (ix1 e) = v (ix1 (⟨e.val, he⟩ : Fin 6400000)) := by
  rw [clip_apply, padWith_apply, dif_pos he]
  exact clip_word _ h0 h1

/-- Column e < 6400000 of the gathered sender features is the sender's feature column. -/
theorem featS_apply (hr : Cert.Spec.InRange (m ((c : Thread nD τ).loc main_arg5))) (f : Fin 5) (e : Fin 6422528) (he : e.val < 6400000) :
    V m c main_v20 (ix2 f e)
      = Cert.Spec.srcRow (m ((c : Thread nD τ).loc main_arg0)) (m ((c : Thread nD τ).loc main_arg1)) (m ((c : Thread nD τ).loc main_arg3))
          (Cert.Spec.node (m ((c : Thread nD τ).loc main_arg5) (ix2 (1 : Fin 2) (⟨e.val, he⟩ : Fin 6400000)))) f := by
  have hw := hr (1 : Fin 2) (⟨e.val, he⟩ : Fin 6400000)
  have hc : clip (padWith (edgeRow1 (m ((c : Thread nD τ).loc main_arg5))) 0#32) (ix1 e)
      = m ((c : Thread nD τ).loc main_arg5) (ix2 (1 : Fin 2) (⟨e.val, he⟩ : Fin 6400000)) := by
    rw [clip_pad_apply _ e he (by rw [edgeRow1_apply]; exact hw.1) (by rw [edgeRow1_apply]; exact hw.2), edgeRow1_apply]
  rw [v20_eq, take5_apply _ _ f e (by rw [hc]; exact hw.1) (by rw [hc]; exact hw.2), hc, srcTab_apply]

/-- Column e < 6400000 of the gathered receiver features is the receiver's feature column. -/
theorem featD_apply (hr : Cert.Spec.InRange (m ((c : Thread nD τ).loc main_arg5))) (f : Fin 7) (e : Fin 6422528) (he : e.val < 6400000) :
    V m c main_v21 (ix2 f e)
      = Cert.Spec.dstRow (m ((c : Thread nD τ).loc main_arg0)) (m ((c : Thread nD τ).loc main_arg1)) (m ((c : Thread nD τ).loc main_arg2))
          (m ((c : Thread nD τ).loc main_arg4))
          (Cert.Spec.node (m ((c : Thread nD τ).loc main_arg5) (ix2 (0 : Fin 2) (⟨e.val, he⟩ : Fin 6400000)))) f := by
  have hw := hr (0 : Fin 2) (⟨e.val, he⟩ : Fin 6400000)
  have hc : clip (padWith (edgeRow0 (m ((c : Thread nD τ).loc main_arg5))) 0#32) (ix1 e)
      = m ((c : Thread nD τ).loc main_arg5) (ix2 (0 : Fin 2) (⟨e.val, he⟩ : Fin 6400000)) := by
    rw [clip_pad_apply _ e he (by rw [edgeRow0_apply]; exact hw.1) (by rw [edgeRow0_apply]; exact hw.2), edgeRow0_apply]
  rw [v21_eq, take7_apply _ _ f e (by rw [hc]; exact hw.1) (by rw [hc]; exact hw.2), hc, dstTab_apply]

/-- The padded receiver list: the receivers, then the number 100000 on the padding. -/
theorem dstPad_apply (e : Fin 6422528) :
    V m c main_v17 (ix1 e)
      = if h : e.val < 6400000 then m ((c : Thread nD τ).loc main_arg5) (ix2 (0 : Fin 2) (⟨e.val, h⟩ : Fin 6400000)) else 100000#32 := by
  rw [v17_eq, padWith_apply]
  by_cases h : e.val < 6400000
  · rw [dif_pos h, dif_pos h, edgeRow0_apply]
  · rw [dif_neg h, dif_neg h]

end Cert.KernelIdeal.Prefix

end
-- ==== Proof.KTail.lean ====
/-
  The host operations after the region: each component of the message array is accumulated at the padded receiver list into
  100001 slots, the last slot is cut off, and the two components are laid side by side.
-/
import proofs.«428443_j28338194219042_3_alg».proof.Proof.Gen.KernelIdeal.Launch
import proofs.«428443_j28338194219042_3_alg».proof.Proof.Spec
import proofs.«428443_j28338194219042_3_alg».proof.Proof.LibScatterGather
import Idealize.ShloMosaic.Lib.StableHlo.Run
import Idealize.ShloMosaic.Lib.ValueIdx
import Idealize.ShloMosaic.Lib.Pipeline.Value

noncomputable section

open scoped BigOperators

namespace Cert.KernelIdeal.Tail

open Idealize.ShloMosaic Idealize.ShloMosaic.TcCoe Idealize.SL.Sem Idealize.ShloMosaic.ValueIdx
open Cert.KernelIdeal Cert.KernelIdeal.Gen

/-- The message array, the padded receiver list and the program's result, read off a valuation as plain functions. -/
def msgArr (W : Valuation τ sig (Elt Ideal)) : S2x6422528.Idx → EReal := W (Proc.devRef .tc main_v22)
def dpadArr (W : Valuation τ sig (Elt Ideal)) : S6422528.Idx → BitVec 32 := W (Proc.devRef .tc main_v17)
def resArr (W : Valuation τ sig (Elt Ideal)) : S100000x2.Idx → EReal :=
  StableHlo.after (hostOps1 (F := Ideal)) W (Proc.devRef .tc main_v37)

/-- A row of the message array cut out and laid flat: entry e is the array's entry (k, e). -/
theorem row_apply (x : S2x6422528.Idx → EReal) (off : Fin 2 → ℕ) (h : S2x6422528.Slices off S1x6422528) (k : Fin 2)
    (h0 : off 0 = k.val) (h1 : off 1 = 0) (e : Fin 6422528) :
    shapeCast S6422528 (extractStridedSlice S1x6422528 off x h) shapeCasts_S1x6422528_S6422528 (ix1 e) = x (ix2 k e) := by
  refine (shapeCast_apply (s := S1x6422528) (t := S6422528) _ shapeCasts_S1x6422528_S6422528 (ix1 e) (ix2 (0 : Fin 1) e) ?_).trans ?_
  · -- both indices sit at row-major position e
    rw [Shape.rowMajor_val_one, Shape.rowMajor_val_two]
    show (0 : ℕ) * 6422528 + e.val = e.val
    omega
  · refine extractStridedSlice_apply (s := S2x6422528) (t := S1x6422528) off x h (ix2 (0 : Fin 1) e) (ix2 k e) ?_
    intro a
    match a with
    | ⟨0, _⟩ => show k.val = off 0 + 0; omega
    | ⟨1, _⟩ => show e.val = off 1 + e.val; omega

/-- One component accumulated: a row of the message array summed into 100001 slots, all zero before, at the padded
    receivers, and the last slot cut off. -/
def col (W : Valuation τ sig (Elt Ideal)) (off : Fin 2 → ℕ) (h : S2x6422528.Slices off S1x6422528) : S100000.Idx → EReal :=
  extractStridedSlice S100000 ![0]
    (Host.scatterAdd (F := Ideal) scatter_S100001_S6422528x1_S6422528_n_0_0_1
      (broadcastInDim S100001 ![] bcast_S_S100001 (constant (F := Ideal) S_ FTy.f32 0#32))
      (broadcastInDim S6422528x1 ![0] bcast_S6422528_S6422528x1_0 (dpadArr W))
      (fun i => shapeCast S6422528 (extractStridedSlice S1x6422528 off (msgArr W) h) shapeCasts_S1x6422528_S6422528 i))
    slices_S100001_S100000_0

/-- Slot i < 100000 of the accumulated row k: the sum of row k over the columns whose padded receiver is i. -/
theorem col_apply (W : Valuation τ sig (Elt Ideal)) (off : Fin 2 → ℕ) (h : S2x6422528.Slices off S1x6422528) (k : Fin 2)
    (h0 : off 0 = k.val) (h1 : off 1 = 0) (i : Fin 100000) :
    col W off h (ix1 i)
      = ∑ e ∈ Finset.univ.filter (fun e : Fin 6422528 => (dpadArr W (ix1 e)).toInt = (i.val : ℤ)), msgArr W (ix2 k e) := by
  unfold col
  -- slot i of the first 100000 is slot i of the 100001
  refine (extractStridedSlice_apply (s := S100001) (t := S100000) ![0] _ slices_S100001_S100000_0 (ix1 i) (ix1 (⟨i.val, by omega⟩ : Fin 100001)) ?_).trans ?_
  · intro a
    match a with
    | ⟨0, _⟩ => show i.val = 0 + i.val; omega
  -- the accumulation: what was in the slot plus the updates that land on it
  refine (Cert.LibSG.scatterAdd_flat (N := 100001) (n := 6422528) scatter_S100001_S6422528x1_S6422528_n_0_0_1 rfl rfl rfl rfl _ _ _ ⟨i.val, by omega⟩).trans ?_
  -- the slot held zero
  have hz : broadcastInDim S100001 ![] bcast_S_S100001 (constant (F := Ideal) S_ FTy.f32 0#32) (ix1 (⟨i.val, by omega⟩ : Fin 100001)) = 0 := by
    refine (broadcastInDim_apply (s := S_) (t := S100001) ![] bcast_S_S100001 _ _ ix0 (fun a => a.elim0)).trans ?_
    show Ideal.ofBits FTy.f32 0#32 = 0
    simp [Ideal.ofBits, Ideal.ieee]
  rw [hz, zero_add]
  -- the positions' column at (e, 0) is the padded receiver list at e
  have hb : ∀ e : Fin 6422528,
      broadcastInDim S6422528x1 ![0] bcast_S6422528_S6422528x1_0 (dpadArr W) (StableHlo.Predicate.ixP e) = dpadArr W (ix1 e) := by
    intro e
    refine broadcastInDim_apply (s := S6422528) (t := S6422528x1) ![0] bcast_S6422528_S6422528x1_0 (dpadArr W)
      (StableHlo.Predicate.ixP e) (ix1 e) ?_
    intro a
    match a with
    | ⟨0, _⟩ =>
      show e.val = if (6422528 : ℕ) = 1 then 0 else e.val
      rw [if_neg (by decide)]
  refine Finset.sum_congr ?_ ?_
  · refine Finset.filter_congr ?_
    intro e _
    rw [hb e]
  · intro e _
    exact row_apply (msgArr W) off h k h0 h1 e

/-- The program's result is the two accumulated components, each stood up as a column, side by side. -/
theorem res_eq (W : Valuation τ sig (Elt Ideal)) (j : S100000x2.Idx) :
    resArr W j = concatenate S100000x2 1
      [⟨S100000x1, broadcastInDim S100000x1 ![0] bcast_S100000_S100000x1_0 (col W ![0, 0] slices_S2x6422528_S1x6422528_0_0)⟩,
       ⟨S100000x1, broadcastInDim S100000x1 ![0] bcast_S100000_S100000x1_0 (col W ![1, 0] slices_S2x6422528_S1x6422528_1_0)⟩]
      concatenates_S100000x1_S100000x1_S100000x2_d1 j := by
  show StableHlo.after (hostOps1 (F := Ideal)) W (Proc.devRef .tc main_v37) j = _
  after_results_simp
  rfl

/-- From any contents W of the buffers at the region's exit: entry (i, k) of the program's result is the sum of row k of the
    message array over the columns whose padded receiver is i. -/
theorem tail_apply (W : Valuation τ sig (Elt Ideal)) (i : Fin 100000) (k : Fin 2) :
    resArr W (ix2 i k)
      = ∑ e ∈ Finset.univ.filter (fun e : Fin 6422528 => (dpadArr W (ix1 e)).toInt = (i.val : ℤ)), msgArr W (ix2 k e) := by
  -- a vector stood up as a column reads, at (i, 0), the vector at i
  have hcol : ∀ (c : S100000.Idx → EReal),
      broadcastInDim S100000x1 ![0] bcast_S100000_S100000x1_0 c (ix2 i (0 : Fin 1)) = c (ix1 i) := by
    intro c
    refine broadcastInDim_apply (s := S100000) (t := S100000x1) ![0] bcast_S100000_S100000x1_0 c (ix2 i (0 : Fin 1)) (ix1 i) ?_
    intro a
    match a with
    | ⟨0, _⟩ =>
      show i.val = if (100000 : ℕ) = 1 then 0 else i.val
      rw [if_neg (by decide)]
  refine (res_eq W (ix2 i k)).trans ?_
  -- two columns of width one side by side: entry (i, k) is column k at (i, 0)
  match k with
  | ⟨0, _⟩ =>
    refine (concatenate_pair_apply_left (t := S100000x2) (s₁ := S100000x1) (s₂ := S100000x1) 1 _ _
      concatenates_S100000x1_S100000x1_S100000x2_d1 (ix2 i (0 : Fin 2)) rfl (ix2 i (0 : Fin 1)) ?_).trans ?_
    · intro b
      match b with
      | ⟨0, _⟩ => rfl
      | ⟨1, _⟩ => rfl
    refine (hcol _).trans ?_
    exact col_apply W ![0, 0] slices_S2x6422528_S1x6422528_0_0 0 rfl rfl i
  | ⟨1, _⟩ =>
    refine (concatenate_pair_apply_right (t := S100000x2) (s₁ := S100000x1) (s₂ := S100000x1) 1 _ _
      concatenates_S100000x1_S100000x1_S100000x2_d1 (ix2 i (1 : Fin 2)) rfl rfl (ix2 i (0 : Fin 1)) ?_ ?_).trans ?_
    · intro b hb
      match b with
      | ⟨0, _⟩ => rfl
      | ⟨1, _⟩ => exact absurd rfl hb
    · rfl
    refine (hcol _).trans ?_
    exact col_apply W ![1, 0] slices_S2x6422528_S1x6422528_1_0 1 rfl rfl i

/-- Columns on the padding carry the receiver 100000, which is no node: the sum over the padded list is the sum over the list. -/
theorem sum_pad (dpad : Fin 6422528 → BitVec 32) (dst : Fin 6400000 → BitVec 32) (g : Fin 6422528 → EReal)
    (hpad : ∀ e : Fin 6422528, dpad e = if h : e.val < 6400000 then dst ⟨e.val, h⟩ else 100000#32) (i : Fin 100000) :
    ∑ e ∈ Finset.univ.filter (fun e : Fin 6422528 => (dpad e).toInt = (i.val : ℤ)), g e
      = ∑ e ∈ Finset.univ.filter (fun e : Fin 6400000 => (dst e).toInt = (i.val : ℤ)), g ⟨e.val, by omega⟩ := by
  have hin : ∀ (e : Fin 6422528) (h : e.val < 6400000), dpad e = dst ⟨e.val, h⟩ := fun e h => by
    rw [hpad e, dif_pos h]
  have hout : ∀ e : Fin 6422528, ¬ e.val < 6400000 → dpad e = 100000#32 := fun e h => by
    rw [hpad e, dif_neg h]
  have h5 : (100000#32 : BitVec 32).toInt = 100000 := by decide
  -- a column whose padded receiver is a node lies before the padding
  have hlt : ∀ e : Fin 6422528, (dpad e).toInt = (i.val : ℤ) → e.val < 6400000 := by
    intro e he
    by_contra hn
    rw [hout e hn, h5] at he
    have := i.isLt
    omega
  symm
  refine Finset.sum_nbij' (fun e : Fin 6400000 => (⟨e.val, by omega⟩ : Fin 6422528))
    (fun e : Fin 6422528 => (⟨min e.val 6399999, by omega⟩ : Fin 6400000)) ?_ ?_ ?_ ?_ ?_
  · intro e he
    have h := (Finset.mem_filter.1 he).2
    refine Finset.mem_filter.2 ⟨Finset.mem_univ _, ?_⟩
    rw [hin ⟨e.val, by omega⟩ e.isLt]
    exact h
  · intro e he
    have h := (Finset.mem_filter.1 he).2
    have hl := hlt e h
    refine Finset.mem_filter.2 ⟨Finset.mem_univ _, ?_⟩
    have e1 : (⟨min e.val 6399999, by omega⟩ : Fin 6400000) = ⟨e.val, hl⟩ :=
      Fin.ext (by show min e.val 6399999 = e.val; omega)
    rw [e1, ← hin e hl]
    exact h
  · intro e _
    have := e.isLt
    exact Fin.ext (by show min e.val 6399999 = e.val; omega)
  · intro e he
    have hl := hlt e (Finset.mem_filter.1 he).2
    exact Fin.ext (by show min e.val 6399999 = e.val; omega)
  · intro e _
    rfl

end Cert.KernelIdeal.Tail

end
-- ==== Proof.KValue.lean ====
/-
  The idealized kernel's result, element by element.

  The region's output array is written back block by block, 49 blocks of 131072 columns; column j of block t is the edge
  message of columns t · 131072 + j of the two gathered feature tables, so the whole array is the message of every
  column.  The host operations after the region accumulate each row of that array at the padded receiver list; the
  padding's receiver is no node, so entry (i, k) of the result is the sum of the messages of the edges received by i.
-/
import proofs.«428443_j28338194219042_3_alg».proof.Proof.FrameKI
import proofs.«428443_j28338194219042_3_alg».proof.Proof.KPayload
import proofs.«428443_j28338194219042_3_alg».proof.Proof.KPrefix
import proofs.«428443_j28338194219042_3_alg».proof.Proof.KTail
import proofs.«428443_j28338194219042_3_alg».proof.Proof.Spec
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The two gathered feature tables as the region finds them: the arrays of the region's two input windows. -/
abbrev tabS (c : Dev nD) : S5x6422528.Idx → EReal := V m c (Pipeline.arrRef spec0 0)
abbrev tabD (c : Dev nD) : S7x6422528.Idx → EReal := V m c (Pipeline.arrRef spec0 1)

/-- The message of every column of two feature tables. -/
def msgFull (A0 : S5x6422528.Idx → EReal) (A1 : S7x6422528.Idx → EReal) (k : Fin 2) (e : Fin 6422528) : EReal :=
  Cert.Spec.msgOf (fun a => A0 (ix2 (Cert.Spec.lo5 a) e)) (fun a => A1 (ix2 (Cert.Spec.lo7 a) e))
    (fun a => A0 (ix2 (Cert.Spec.hi5 a) e)) (fun a => A1 (ix2 (Cert.Spec.hi7 a) e))
    (fun b => A1 (ix2 (Cert.Spec.par7 b) e)) (A0 (ix2 (4 : Fin 5) e)) k

/-- The same as an array. -/
def msgArrOf (A0 : S5x6422528.Idx → EReal) (A1 : S7x6422528.Idx → EReal) : S2x6422528.Idx → EReal :=
  fun i => msgFull A0 A1 (i 0) (i 1)

/-- Every window's block at grid point t is block (0, t) of its array. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

theorem t_lt (t : Fin cfg0.N) : t.val < 49 := Nat.lt_of_lt_of_eq t.isLt N_0

/-- Column j of block t is column t · 131072 + j of the array. -/
def col (t : Fin cfg0.N) (j : Fin 131072) : Fin 6422528 := ⟨t.val * 131072 + j.val, by have := t_lt t; have := j.isLt; omega⟩

theorem emb0 (t : Fin cfg0.N) (r : Fin 5) (j : Fin 131072) :
    ((cfg0.win 0).blk t).view.emb (ix2 r j) = ix2 r (col t j) := by
  obtain ⟨e0, e1, e2, e3, e4, e5⟩ := idx_facts t
  funext a; apply Fin.ext
  match a with
  | ⟨0, _⟩ => show win0_0.index t (0 : Fin 2) * 5 + 1 * r.val = r.val; omega
  | ⟨1, _⟩ => show win0_0.index t (1 : Fin 2) * 131072 + 1 * j.val = t.val * 131072 + j.val; omega
theorem emb1 (t : Fin cfg0.N) (r : Fin 7) (j : Fin 131072) :
    ((cfg0.win 1).blk t).view.emb (ix2 r j) = ix2 r (col t j) := by
  obtain ⟨e0, e1, e2, e3, e4, e5⟩ := idx_facts t
  funext a; apply Fin.ext
  match a with
  | ⟨0, _⟩ => show win0_1.index t (0 : Fin 2) * 7 + 1 * r.val = r.val; omega
  | ⟨1, _⟩ => show win0_1.index t (1 : Fin 2) * 131072 + 1 * j.val = t.val * 131072 + j.val; omega
theorem emb2 (t : Fin cfg0.N) (r : Fin 2) (j : Fin 131072) :
    ((cfg0.win 2).blk t).view.emb (ix2 r j) = ix2 r (col t j) := by
  obtain ⟨e0, e1, e2, e3, e4, e5⟩ := idx_facts t
  funext a; apply Fin.ext
  match a with
  | ⟨0, _⟩ => show win0_2.index t (0 : Fin 2) * 2 + 1 * r.val = r.val; omega
  | ⟨1, _⟩ => show win0_2.index t (1 : Fin 2) * 131072 + 1 * j.val = t.val * 131072 + j.val; omega

/-- A block of any array, entry by entry: entry (r, j) of block t is entry (r, t · 131072 + j) of the array. -/
theorem read_blk0 (A0 : S5x6422528.Idx → EReal) (t : Fin cfg0.N) (r : Fin 5) (j : Fin 131072) :
    (((cfg0.win 0).blk t).view.read (Elt Ideal) A0 : S5x131072.Idx → EReal) (ix2 r j) = A0 (ix2 r (col t j)) := by
  show A0 (((cfg0.win 0).blk t).view.emb (ix2 r j)) = _
  rw [emb0]
theorem read_blk1 (A1 : S7x6422528.Idx → EReal) (t : Fin cfg0.N) (r : Fin 7) (j : Fin 131072) :
    (((cfg0.win 1).blk t).view.read (Elt Ideal) A1 : S7x131072.Idx → EReal) (ix2 r j) = A1 (ix2 r (col t j)) := by
  show A1 (((cfg0.win 1).blk t).view.emb (ix2 r j)) = _
  rw [emb1]

/-- For any two arrays in the input windows' places: what the body leaves of their blocks at grid point t, written
    back, is block t of the message array of the two arrays. -/
theorem flushed_core (A0 : S5x6422528.Idx → EReal) (A1 : S7x6422528.Idx → EReal) (t : Fin cfg0.N) :
    (cfg0.win 2).cut (grid0.coords t)
        (out0_2 (F := Ideal) (((cfg0.win 0).blk t).view.read (Elt Ideal) A0) (((cfg0.win 1).blk t).view.read (Elt Ideal) A1))
      = ((cfg0.win 2).blk t).view.read (Elt Ideal) (msgArrOf A0 A1) := by
  unfold out0_2
  rw [View.canon_unit_zero hz]
  simp only [View.ld_unit_zero (S := S5x131072) hz, View.ld_unit_zero (S := S7x131072) hz]
  funext y
  obtain ⟨k, j, rfl⟩ : ∃ (k : Fin 2) (j : Fin 131072), y = ix2 k j := ⟨y 0, y 1, eq_ix2 y⟩
  refine (Cert.KernelIdeal.Payload.pay_apply (((cfg0.win 0).blk t).view.read (Elt Ideal) A0)
    (((cfg0.win 1).blk t).view.read (Elt Ideal) A1) k j).trans ?_
  show _ = msgArrOf A0 A1 (((cfg0.win 2).blk t).view.emb (ix2 k j))
  rw [emb2]
  show _ = msgFull A0 A1 k (col t j)
  unfold msgFull
  refine congr (congr (congr (congr (congr (congr (congrArg Cert.Spec.msgOf ?_) ?_) ?_) ?_) ?_) ?_) rfl
  · exact funext fun a => read_blk0 A0 t _ j
  · exact funext fun a => read_blk1 A1 t _ j
  · exact funext fun a => read_blk0 A0 t _ j
  · exact funext fun a => read_blk1 A1 t _ j
  · exact funext fun b => read_blk1 A1 t _ j
  · exact read_blk0 A0 t _ j

/-- What grid point t writes back is block t of the message array of the two gathered tables. -/
theorem flushed_eq (c : Dev nD) (t : Fin cfg0.N) :
    (dats m 0 c).flushed 2 t = ((cfg0.win 2).blk t).view.read (Elt Ideal) (msgArrOf (tabS m c) (tabD m c)) := by
  show (cfg0.win 2).cut (grid0.coords t) ((dats m 0 c).after 2 t) = _
  rw [after0_2]
  unfold iblk
  exact flushed_core (V m c (Pipeline.arrRef spec0 0)) (V m c (Pipeline.arrRef spec0 1)) t

/-- An index of the array is in grid point t's block iff each coordinate is in the block's range on its axis. -/
theorem mem_blk (t : Fin cfg0.N) (i : S2x6422528.Idx) :
    i ∈ ((cfg0.win 2).blk t).view.set ↔ ∀ a : Fin 2, win0_2.index t a * S2x131072.size a ≤ (i a).val ∧ (i a).val < win0_2.index t a * S2x131072.size a + S2x131072.size a := by
  show i ∈ ((View.whole main_v22).slice (win0_2.rect t)).set ↔ _
  rw [View.set_slice_whole, Rect.mem_set_unit]
  exact Iff.rfl

/-- Every entry of the array lies in the block of the grid point its column falls in. -/
theorem cover (i : S2x6422528.Idx) : ∃ t : Fin cfg0.N, (cfg0.win 2).flush t = true ∧ i ∈ ((cfg0.win 2).blk t).view.set := by
  have hi0 : (i 0).val < 2 := (i 0).isLt
  have hi1 : (i 1).val < 6422528 := (i 1).isLt
  have hN : cfg0.N = 49 := N_0
  refine ⟨⟨(i 1).val / 131072, by rw [hN]; omega⟩, flush0_2 _, ?_⟩
  rw [mem_blk]
  obtain ⟨e0, e1, e2, e3, e4, e5⟩ := idx_facts ⟨(i 1).val / 131072, by rw [hN]; omega⟩
  intro a
  match a with
  | ⟨0, _⟩ =>
    show win0_2.index _ (0 : Fin 2) * 2 ≤ (i 0).val ∧ (i 0).val < win0_2.index _ (0 : Fin 2) * 2 + 2
    rw [e4]; omega
  | ⟨1, _⟩ =>
    show win0_2.index _ (1 : Fin 2) * 131072 ≤ (i 1).val ∧ (i 1).val < win0_2.index _ (1 : Fin 2) * 131072 + 131072
    rw [e5]; show (i 1).val / 131072 * 131072 ≤ (i 1).val ∧ (i 1).val < (i 1).val / 131072 * 131072 + 131072; omega

/-- The output array after the run is the message array. -/
theorem final (c : Dev nD) : (dats m 0 c).arrAt 2 cfg0.N = msgArrOf (tabS m c) (tabD m c) :=
  (dats m 0 c).arrAt_eq_of_cover 2 (msgArrOf (tabS m c) (tabD m c)) (fun t _ => flushed_eq m c t) cover

/-! ## The host operations after the region -/

/-- The buffers at the region's exit. -/
abbrev Wexit (c : Dev nD) : Valuation τ sig (Elt Ideal) :=
  Pipeline.withArrays (cfgs 0).spec c (V0 m c) fun w => (dats m 0 c).arrAt w (cfgs 0).N

theorem exit_msg (c : Dev nD) : Cert.KernelIdeal.Tail.msgArr (Wexit m c) = msgArrOf (tabS m c) (tabD m c) := by
  unfold Cert.KernelIdeal.Tail.msgArr
  exact (Pipeline.withArrays_arr spec0 launch0.win.arr_inj c _ _ 2).trans (final m c)

theorem exit_dpad (c : Dev nD) : Cert.KernelIdeal.Tail.dpadArr (Wexit m c) = V m c main_v17 := by
  unfold Cert.KernelIdeal.Tail.dpadArr
  exact Pipeline.withArrays_of_ne _ c (V0 m c) _ main_v17 (by exact (by decide : ∀ w, Pipeline.arrRef spec0 w ≠ main_v17))

/-- The input windows' arrays are the two gathered tables' buffers. -/
theorem tabS_apply (c : Dev nD) (f : Fin 5) (e : Fin 6422528) : tabS m c (ix2 f e) = V m c main_v20 (ix2 f e) := rfl
theorem tabD_apply (c : Dev nD) (f : Fin 7) (e : Fin 6422528) : tabD m c (ix2 f e) = V m c main_v21 (ix2 f e) := rfl

/-- The column of the padded arrays that holds edge e. -/
def up (e : Fin 6400000) : Fin 6422528 := ⟨e.val, by have := e.isLt; omega⟩

/-- The two gathered tables at the column of a genuine edge: the sender's and the receiver's feature columns. -/
theorem tabS_at (c : Dev nD) (hr : Cert.Spec.InRange (m ((c : Thread nD τ).loc main_arg5))) (f : Fin 5) (e : Fin 6400000) :
    tabS m c (ix2 f (up e))
      = Cert.Spec.srcRow (m ((c : Thread nD τ).loc main_arg0)) (m ((c : Thread nD τ).loc main_arg1)) (m ((c : Thread nD τ).loc main_arg3))
          (Cert.Spec.node (m ((c : Thread nD τ).loc main_arg5) (ix2 (1 : Fin 2) e))) f := by
  rw [tabS_apply]
  exact Cert.KernelIdeal.Prefix.featS_apply m c hr f (up e) e.isLt
theorem tabD_at (c : Dev nD) (hr : Cert.Spec.InRange (m ((c : Thread nD τ).loc main_arg5))) (f : Fin 7) (e : Fin 6400000) :
    tabD m c (ix2 f (up e))
      = Cert.Spec.dstRow (m ((c : Thread nD τ).loc main_arg0)) (m ((c : Thread nD τ).loc main_arg1)) (m ((c : Thread nD τ).loc main_arg2))
          (m ((c : Thread nD τ).loc main_arg4))
          (Cert.Spec.node (m ((c : Thread nD τ).loc main_arg5) (ix2 (0 : Fin 2) e))) f := by
  rw [tabD_apply]
  exact Cert.KernelIdeal.Prefix.featD_apply m c hr f (up e) e.isLt

/-- Entry (i, k) of the kernel's result is the sum of the messages of the edges received by node i. -/
theorem result_apply (c : Dev nD) (hr : Cert.Spec.InRange (m ((c : Thread nD τ).loc main_arg5))) (i : Fin 100000) (k : Fin 2) :
    (Pipeline.afterTail₀ cfgs (dats m) 0 (V0 m) [hostOps1] c main_v37 : S100000x2.Idx → EReal) (ix2 i k)
      = Cert.Spec.resultAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) i k := by
  show Cert.KernelIdeal.Tail.resArr (Wexit m c) (ix2 i k) = _
  rw [Cert.KernelIdeal.Tail.tail_apply, exit_msg, exit_dpad]
  rw [Cert.KernelIdeal.Tail.sum_pad (fun e => V m c main_v17 (ix1 e))
    (fun e => m ((c : Thread nD τ).loc main_arg5) (ix2 (0 : Fin 2) e))
    (fun e => msgArrOf (tabS m c) (tabD m c) (ix2 k e))
    (fun e => Cert.KernelIdeal.Prefix.dstPad_apply m c e) i]
  unfold Cert.Spec.resultAt
  refine Finset.sum_congr rfl fun e _ => ?_
  rw [Cert.Spec.edgeMsg_eq_rows]
  show msgFull (tabS m c) (tabD m c) k (up e) = _
  unfold msgFull
  simp only [tabS_at m c hr, tabD_at m c hr]

/-! ## The run, read -/

/-- The idealized kernel runs, ends with the result array at the specification's function of the argument arrays, and
    leaves the argument arrays unchanged. -/
theorem run (hr : ∀ c : Dev nD, Cert.Spec.InRange (m ((c : Thread nD τ).loc main_arg5))) :
    θ_run defs (onTc (τ := τ) (main (F := Ideal))) ⟨m, fun _ => 0, ρ⟩ (fun r => ∀ c : Dev nD,
      r.2.mem ((c.tc : Thread nD τ).loc main_v37)
        = Cert.Spec.result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨by
      refine ((h c).2 main_v37 (Pipeline.mem_restRefs_of main_v37 (by decide) (by decide))).trans ?_
      funext y
      obtain ⟨i, k, rfl⟩ : ∃ (i : Fin 100000) (k : Fin 2), y = ix2 i k := ⟨y 0, y 1, eq_ix2 y⟩
      exact result_apply m c (hr c) i k,
    (((h c).2 main_arg0 (Pipeline.mem_restRefs_of main_arg0 (by decide) (by decide))).trans (W_main_arg0 m (dats m) c)),
    (((h c).2 main_arg1 (Pipeline.mem_restRefs_of main_arg1 (by decide) (by decide))).trans (W_main_arg1 m (dats m) c)),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c)),
    (((h c).2 main_arg5 (Pipeline.mem_restRefs_of main_arg5 (by decide) (by decide))).trans (W_main_arg5 m (dats m) c))⟩)
    (run_main m ρ)

end Cert.KernelIdeal.KValue

end
-- ==== Proof.RefValue.lean ====
/-
  The reference's result, element by element, as a function of the argument arrays.
-/
import proofs.«428443_j28338194219042_3_alg».proof.Proof.Gen.ReferenceIdeal.Run
import proofs.«428443_j28338194219042_3_alg».proof.Proof.Gen.ReferenceIdeal.Read
import proofs.«428443_j28338194219042_3_alg».proof.Proof.Spec
import proofs.«428443_j28338194219042_3_alg».proof.Proof.LibScatterGather
import Idealize.ShloMosaic.Lib.StableHlo.Predicate
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen
open Idealize.ShloMosaic.StableHlo.Predicate (ixP)
open Cert.ReferenceIdeal.Read

/-- A word that is not negative is left alone by the wrap-around of negative indices. -/
theorem norm_word (w : BitVec 32) (h : 0 ≤ w.toInt) :
    Scalar.select (IntOp.cmpi .slt w 0#32) (IntOp.addi w 100000#32) w = w := by
  have hc : IntOp.cmpi .slt w 0#32 = 0#1 := by
    refine eq_zero_of_ne_one (fun h1 => ?_)
    have := IntOp.cmpi_slt.1 h1
    have e0 : (0#32 : BitVec 32).toInt = 0 := by decide
    omega
  rw [hc, select_zero]

/-- The receiver list at edge e is row 0 of the edge array. -/
theorem v1_at (x5 : IVec S2x6400000 32) (e : Fin 6400000) :
    val_main_v1 (F := Ideal) x5 (ix1 e) = x5 (ix2 0 e) := by
  rw [val_main_v1_apply, val_main_v0_apply]
  congr 1
  funext a
  match a with
  | ⟨0, _⟩ => exact Fin.ext rfl
  | ⟨1, _⟩ => exact Fin.ext (Nat.mod_eq_of_lt e.isLt)

/-- The sender list at edge e is row 1 of the edge array. -/
theorem v3_at (x5 : IVec S2x6400000 32) (e : Fin 6400000) :
    val_main_v3 (F := Ideal) x5 (ix1 e) = x5 (ix2 1 e) := by
  rw [val_main_v3_apply, val_main_v2_apply]
  congr 1
  funext a
  match a with
  | ⟨0, _⟩ => exact Fin.ext rfl
  | ⟨1, _⟩ => exact Fin.ext (Nat.mod_eq_of_lt e.isLt)

/-! Under the range hypothesis each normalised index column holds the raw word: senders from row 1, receivers from row 0. -/

theorem v9_at (x5 : IVec S2x6400000 32) (hr : Cert.Spec.InRange x5) (e : Fin 6400000) :
    val_main_v9 (F := Ideal) x5 (ixP e) = x5 (ix2 1 e) := by
  rw [val_main_v9_apply]
  have hi : idx_main_v9 (ixP e) = ix1 e := by
    funext a; match a with | ⟨0, _⟩ => rfl
  rw [hi, val_main_v8_apply, val_main_v5_apply, val_main_v7_apply, val_main_v4_apply, val_main_v6_apply, v3_at]
  exact norm_word _ (hr 1 e).1

theorem v16_at (x5 : IVec S2x6400000 32) (hr : Cert.Spec.InRange x5) (e : Fin 6400000) :
    val_main_v16 (F := Ideal) x5 (ixP e) = x5 (ix2 0 e) := by
  rw [val_main_v16_apply]
  have hi : idx_main_v16 (ixP e) = ix1 e := by
    funext a; match a with | ⟨0, _⟩ => rfl
  rw [hi, val_main_v15_apply, val_main_v12_apply, val_main_v14_apply, val_main_v11_apply, val_main_v13_apply, v1_at]
  exact norm_word _ (hr 0 e).1

theorem v24_at (x5 : IVec S2x6400000 32) (hr : Cert.Spec.InRange x5) (e : Fin 6400000) :
    val_main_v24 (F := Ideal) x5 (ixP e) = x5 (ix2 1 e) := by
  rw [val_main_v24_apply]
  have hi : idx_main_v24 (ixP e) = ix1 e := by
    funext a; match a with | ⟨0, _⟩ => rfl
  rw [hi, val_main_v23_apply, val_main_v20_apply, val_main_v22_apply, val_main_v19_apply, val_main_v21_apply, v3_at]
  exact norm_word _ (hr 1 e).1

theorem v31_at (x5 : IVec S2x6400000 32) (hr : Cert.Spec.InRange x5) (e : Fin 6400000) :
    val_main_v31 (F := Ideal) x5 (ixP e) = x5 (ix2 0 e) := by
  rw [val_main_v31_apply]
  have hi : idx_main_v31 (ixP e) = ix1 e := by
    funext a; match a with | ⟨0, _⟩ => rfl
  rw [hi, val_main_v30_apply, val_main_v27_apply, val_main_v29_apply, val_main_v26_apply, val_main_v28_apply, v1_at]
  exact norm_word _ (hr 0 e).1

theorem v39_at (x5 : IVec S2x6400000 32) (hr : Cert.Spec.InRange x5) (e : Fin 6400000) :
    val_main_v39 (F := Ideal) x5 (ixP e) = x5 (ix2 0 e) := by
  rw [val_main_v39_apply]
  have hi : idx_main_v39 (ixP e) = ix1 e := by
    funext a; match a with | ⟨0, _⟩ => rfl
  rw [hi, val_main_v38_apply, val_main_v35_apply, val_main_v37_apply, val_main_v34_apply, val_main_v36_apply, v1_at]
  exact norm_word _ (hr 0 e).1

theorem v79_at (x5 : IVec S2x6400000 32) (hr : Cert.Spec.InRange x5) (e : Fin 6400000) :
    val_main_v79 (F := Ideal) x5 (ixP e) = x5 (ix2 1 e) := by
  rw [val_main_v79_apply]
  have hi : idx_main_v79 (ixP e) = ix1 e := by
    funext a; match a with | ⟨0, _⟩ => rfl
  rw [hi, val_main_v78_apply, val_main_v75_apply, val_main_v77_apply, val_main_v74_apply, val_main_v76_apply, v3_at]
  exact norm_word _ (hr 1 e).1

/-- The clamped row number a gather of node rows reads, when its index word is w, is the node of w. -/
theorem node_eq {v w : BitVec 32} (hv : v = w) (h : min v.toInt.toNat (100000 - 1) < 100000) :
    (⟨min v.toInt.toNat (100000 - 1), h⟩ : Fin 100000) = Cert.Spec.node w := by
  subst hv; exact Fin.ext rfl

/-- Sender positions. -/
theorem v10_at (x0 : FVec Ideal S100000x2 .f32) (x5 : IVec S2x6400000 32) (hr : Cert.Spec.InRange x5) (e : Fin 6400000) (a : Fin 2) :
    val_main_v10 (F := Ideal) x0 x5 (ix2 e a) = x0 (ix2 (Cert.Spec.node (x5 (ix2 1 e))) a) := by
  unfold val_main_v10
  refine (Cert.LibSG.gather_rows (N := 100000) (D := 2) (n := 6400000) _ rfl rfl rfl rfl rfl rfl rfl x0 _ e a (by decide)).trans ?_
  rw [node_eq (v9_at x5 hr e)]

/-- Receiver positions. -/
theorem v17_at (x0 : FVec Ideal S100000x2 .f32) (x5 : IVec S2x6400000 32) (hr : Cert.Spec.InRange x5) (e : Fin 6400000) (a : Fin 2) :
    val_main_v17 (F := Ideal) x0 x5 (ix2 e a) = x0 (ix2 (Cert.Spec.node (x5 (ix2 0 e))) a) := by
  unfold val_main_v17
  refine (Cert.LibSG.gather_rows (N := 100000) (D := 2) (n := 6400000) _ rfl rfl rfl rfl rfl rfl rfl x0 _ e a (by decide)).trans ?_
  rw [node_eq (v16_at x5 hr e)]

/-- Sender velocities. -/
theorem v25_at (x1 : FVec Ideal S100000x2 .f32) (x5 : IVec S2x6400000 32) (hr : Cert.Spec.InRange x5) (e : Fin 6400000) (a : Fin 2) :
    val_main_v25 (F := Ideal) x1 x5 (ix2 e a) = x1 (ix2 (Cert.Spec.node (x5 (ix2 1 e))) a) := by
  unfold val_main_v25
  refine (Cert.LibSG.gather_rows (N := 100000) (D := 2) (n := 6400000) _ rfl rfl rfl rfl rfl rfl rfl x1 _ e a (by decide)).trans ?_
  rw [node_eq (v24_at x5 hr e)]

/-- Receiver velocities. -/
theorem v32_at (x1 : FVec Ideal S100000x2 .f32) (x5 : IVec S2x6400000 32) (hr : Cert.Spec.InRange x5) (e : Fin 6400000) (a : Fin 2) :
    val_main_v32 (F := Ideal) x1 x5 (ix2 e a) = x1 (ix2 (Cert.Spec.node (x5 (ix2 0 e))) a) := by
  unfold val_main_v32
  refine (Cert.LibSG.gather_rows (N := 100000) (D := 2) (n := 6400000) _ rfl rfl rfl rfl rfl rfl rfl x1 _ e a (by decide)).trans ?_
  rw [node_eq (v31_at x5 hr e)]

/-- Sender field values. -/
theorem v80_at (x3 : FVec Ideal S100000x1 .f32) (x5 : IVec S2x6400000 32) (hr : Cert.Spec.InRange x5) (e : Fin 6400000) (a : Fin 1) :
    val_main_v80 (F := Ideal) x3 x5 (ix2 e a) = x3 (ix2 (Cert.Spec.node (x5 (ix2 1 e))) a) := by
  unfold val_main_v80
  refine (Cert.LibSG.gather_rows (N := 100000) (D := 1) (n := 6400000) _ rfl rfl rfl rfl rfl rfl rfl x3 _ e a (by decide)).trans ?_
  rw [node_eq (v79_at x5 hr e)]

/-- The rank-1 index at a coordinate, in the two spellings in use. -/
theorem ofFin_eq_ix1 {n : Nat} (k : Fin n) : Shape.Idx.ofFin k = ix1 k := by
  funext a; match a with | ⟨0, _⟩ => exact Fin.ext rfl

/-- The receiver's type word. -/
theorem v40_at (x4 : IVec S100000 32) (x5 : IVec S2x6400000 32) (hr : Cert.Spec.InRange x5) (e : Fin 6400000) :
    val_main_v40 (F := Ideal) x4 x5 (ix1 e) = x4 (ix1 (Cert.Spec.node (x5 (ix2 0 e)))) := by
  unfold val_main_v40
  rw [← ofFin_eq_ix1]
  refine (StableHlo.Predicate.gather_take (N := 100000) (n := 6400000) _ rfl rfl rfl rfl x4 _ e (by decide)).trans ?_
  rw [node_eq (v39_at x5 hr e), ofFin_eq_ix1]

/-- The clamped row of the parameter table a type word selects. -/
theorem typeRow_eq {v : BitVec 32} (t : BitVec 32)
    (hv : v = Scalar.select (IntOp.cmpi .slt t 0#32) (IntOp.addi t 16#32) t) (h : min v.toInt.toNat (16 - 1) < 16) :
    (⟨min v.toInt.toNat (16 - 1), h⟩ : Fin 16) = Cert.Spec.typeRow t := by
  subst hv; exact Fin.ext rfl

/-- The normalised type word, as a column. -/
theorem v46_at (x4 : IVec S100000 32) (x5 : IVec S2x6400000 32) (hr : Cert.Spec.InRange x5) (e : Fin 6400000) :
    val_main_v46 (F := Ideal) x4 x5 (ixP e)
      = Scalar.select (IntOp.cmpi .slt (x4 (ix1 (Cert.Spec.node (x5 (ix2 0 e))))) 0#32)
          (IntOp.addi (x4 (ix1 (Cert.Spec.node (x5 (ix2 0 e))))) 16#32) (x4 (ix1 (Cert.Spec.node (x5 (ix2 0 e))))) := by
  rw [val_main_v46_apply]
  have hi : idx_main_v46 (ixP e) = ix1 e := by
    funext a; match a with | ⟨0, _⟩ => rfl
  rw [hi, val_main_v45_apply, val_main_v42_apply, val_main_v44_apply, val_main_v41_apply, val_main_v43_apply, v40_at x4 x5 hr e]
  rfl

/-- The receiver's parameter row. -/
theorem v47_at (x2 : FVec Ideal S16x3 .f32) (x4 : IVec S100000 32) (x5 : IVec S2x6400000 32) (hr : Cert.Spec.InRange x5)
    (e : Fin 6400000) (b : Fin 3) :
    val_main_v47 (F := Ideal) x2 x4 x5 (ix2 e b)
      = x2 (ix2 (Cert.Spec.typeRow (x4 (ix1 (Cert.Spec.node (x5 (ix2 0 e)))))) b) := by
  unfold val_main_v47
  refine (Cert.LibSG.gather_rows (N := 16) (D := 3) (n := 6400000) _ rfl rfl rfl rfl rfl rfl rfl x2 _ e b (by decide)).trans ?_
  rw [typeRow_eq _ (v46_at x4 x5 hr e)]

section Message

variable (x0 x1 : FVec Ideal S100000x2 .f32) (x2 : FVec Ideal S16x3 .f32) (x3 : FVec Ideal S100000x1 .f32)
  (x4 : IVec S100000 32) (x5 : IVec S2x6400000 32) (hr : Cert.Spec.InRange x5) (e : Fin 6400000)
include hr

/-- Position difference, sender minus receiver. -/
theorem v18_at (a : Fin 2) :
    val_main_v18 (F := Ideal) x0 x5 (ix2 e a)
      = x0 (ix2 (Cert.Spec.node (x5 (ix2 1 e))) a) - x0 (ix2 (Cert.Spec.node (x5 (ix2 0 e))) a) := by
  rw [val_main_v18_apply, v10_at x0 x5 hr, v17_at x0 x5 hr]; rfl

/-- Velocity difference, sender minus receiver. -/
theorem v33_at (a : Fin 2) :
    val_main_v33 (F := Ideal) x1 x5 (ix2 e a)
      = x1 (ix2 (Cert.Spec.node (x5 (ix2 1 e))) a) - x1 (ix2 (Cert.Spec.node (x5 (ix2 0 e))) a) := by
  rw [val_main_v33_apply, v25_at x1 x5 hr, v32_at x1 x5 hr]; rfl

/-- The squared distance, as a column. -/
theorem v50_at :
    val_main_v50 (F := Ideal) x0 x5 (ix2 e (0 : Fin 1))
      = Cert.Spec.dist2 (fun a => x0 (ix2 (Cert.Spec.node (x5 (ix2 1 e))) a)) (fun a => x0 (ix2 (Cert.Spec.node (x5 (ix2 0 e))) a)) := by
  rw [val_main_v50_apply]
  have hi : idx_main_v50 (ix2 e (0 : Fin 1)) = ix1 e := by
    funext a; match a with | ⟨0, _⟩ => rfl
  rw [hi, val_main_v49_apply, Fin.sum_univ_two]
  have h0 : idx_main_v49 (ix1 e) 0 = ix2 e 0 := by
    funext a; match a with | ⟨0, _⟩ => rfl | ⟨1, _⟩ => rfl
  have h1 : idx_main_v49 (ix1 e) 1 = ix2 e 1 := by
    funext a; match a with | ⟨0, _⟩ => rfl | ⟨1, _⟩ => rfl
  rw [h0, h1, val_main_v48_apply, val_main_v48_apply, v18_at x0 x5 hr e, v18_at x0 x5 hr e, val_main_cst_apply,
    Ideal.ofBits_def, Ideal.ofBits_zero_f32, zero_add]
  rfl

/-- The squared distance with 1 in place of a value that is not positive, as a column. -/
theorem v53_at :
    val_main_v53 (F := Ideal) x0 x5 (ix2 e (0 : Fin 1))
      = Cert.Spec.safe2 (fun a => x0 (ix2 (Cert.Spec.node (x5 (ix2 1 e))) a)) (fun a => x0 (ix2 (Cert.Spec.node (x5 (ix2 0 e))) a)) := by
  rw [val_main_v53_apply, val_main_v52_apply, v50_at x0 x5 hr e, val_main_v51_apply, val_main_cst_11_apply,
    val_main_call0_v1_apply, val_main_call0_v0_apply, val_main_cst_12_apply, Ideal.ofBits_def, Ideal.ofBits_def,
    Ideal.ofBits_zero_f32, Ideal.cmpf_def]
  rfl

/-- The receiver's three parameters, each as a column. -/
theorem v54_at :
    val_main_v54 (F := Ideal) x2 x4 x5 (ix2 e (0 : Fin 1))
      = x2 (ix2 (Cert.Spec.typeRow (x4 (ix1 (Cert.Spec.node (x5 (ix2 0 e)))))) 0) := by
  rw [val_main_v54_apply]
  have hi : idx_main_v54 (ix2 e (0 : Fin 1)) = ix2 e (0 : Fin 3) := by
    funext a; match a with | ⟨0, _⟩ => rfl | ⟨1, _⟩ => rfl
  rw [hi, v47_at x2 x4 x5 hr]
theorem v59_at :
    val_main_v59 (F := Ideal) x2 x4 x5 (ix2 e (0 : Fin 1))
      = x2 (ix2 (Cert.Spec.typeRow (x4 (ix1 (Cert.Spec.node (x5 (ix2 0 e)))))) 1) := by
  rw [val_main_v59_apply]
  have hi : idx_main_v59 (ix2 e (0 : Fin 1)) = ix2 e (1 : Fin 3) := by
    funext a; match a with | ⟨0, _⟩ => rfl | ⟨1, _⟩ => rfl
  rw [hi, v47_at x2 x4 x5 hr]
theorem v64_at :
    val_main_v64 (F := Ideal) x2 x4 x5 (ix2 e (0 : Fin 1))
      = x2 (ix2 (Cert.Spec.typeRow (x4 (ix1 (Cert.Spec.node (x5 (ix2 0 e)))))) 2) := by
  rw [val_main_v64_apply]
  have hi : idx_main_v64 (ix2 e (0 : Fin 1)) = ix2 e (2 : Fin 3) := by
    funext a; match a with | ⟨0, _⟩ => rfl | ⟨1, _⟩ => rfl
  rw [hi, v47_at x2 x4 x5 hr]

/-- The message array at (e, k) is the message of edge e, component k. -/
theorem v82_at (k : Fin 2) :
    val_main_v82 (F := Ideal) x0 x1 x2 x3 x4 x5 (ix2 e k) = Cert.Spec.edgeMsg x0 x1 x2 x3 x4 x5 e k := by
  have h57 : idx_main_v57 (ix2 e k) = ix2 e (0 : Fin 1) := by
    funext a; match a with | ⟨0, _⟩ => rfl | ⟨1, _⟩ => rfl
  have h62 : idx_main_v62 (ix2 e k) = ix2 e (0 : Fin 1) := by
    funext a; match a with | ⟨0, _⟩ => rfl | ⟨1, _⟩ => rfl
  have h68 : idx_main_v68 (ix2 e k) = ix2 e (0 : Fin 1) := by
    funext a; match a with | ⟨0, _⟩ => rfl | ⟨1, _⟩ => rfl
  have h70 : idx_main_v70 (ix2 e k) = ix2 e (0 : Fin 1) := by
    funext a; match a with | ⟨0, _⟩ => rfl | ⟨1, _⟩ => rfl
  have h81 : idx_main_v81 (ix2 e k) = ix2 e (0 : Fin 1) := by
    funext a; match a with | ⟨0, _⟩ => rfl | ⟨1, _⟩ => rfl
  rw [val_main_v82_apply, val_main_v73_apply, val_main_v72_apply, val_main_v71_apply, val_main_v69_apply,
    val_main_v68_apply, h68, val_main_v67_apply, val_main_v65_apply, v64_at x2 x4 x5 hr e, val_main_v66_apply,
    val_main_cst_15_apply, val_main_v70_apply, h70, v53_at x0 x5 hr e, val_main_v63_apply, val_main_v62_apply, h62,
    val_main_v61_apply, v59_at x2 x4 x5 hr e, val_main_v60_apply, val_main_cst_14_apply, v33_at x1 x5 hr e,
    val_main_v58_apply, val_main_v57_apply, h57, val_main_v56_apply, v54_at x2 x4 x5 hr e, val_main_v55_apply,
    val_main_cst_13_apply, v18_at x0 x5 hr e, val_main_v81_apply, h81, v80_at x3 x5 hr e]
  rfl

end Message

/-- The scatter's position column holds the raw receiver word. -/
theorem v84_at (x5 : IVec S2x6400000 32) (e : Fin 6400000) :
    val_main_v84 (F := Ideal) x5 (ixP e) = x5 (ix2 0 e) := by
  rw [val_main_v84_apply]
  have hi : idx_main_v84 (ixP e) = ix1 e := by
    funext a; match a with | ⟨0, _⟩ => rfl
  rw [hi, v1_at]

/-- The last stage at (i, k): the messages of the edges whose receiver word is i, summed onto zero. -/
theorem v85_at (x0 x1 : FVec Ideal S100000x2 .f32) (x2 : FVec Ideal S16x3 .f32) (x3 : FVec Ideal S100000x1 .f32)
    (x4 : IVec S100000 32) (x5 : IVec S2x6400000 32) (hr : Cert.Spec.InRange x5) (i : Fin 100000) (k : Fin 2) :
    val_main_v85 (F := Ideal) x0 x1 x2 x3 x4 x5 (ix2 i k) = Cert.Spec.resultAt x0 x1 x2 x3 x4 x5 i k := by
  unfold val_main_v85
  refine (Cert.LibSG.scatterAdd_rows (N := 100000) (D := 2) (n := 6400000) _ rfl rfl rfl rfl _ _ _ i k).trans ?_
  rw [val_main_v83_apply, val_main_cst_18_apply, Ideal.ofBits_def, Ideal.ofBits_zero_f32, zero_add]
  unfold Cert.Spec.resultAt
  exact Finset.sum_congr (Finset.filter_congr fun e _ => by rw [v84_at])
    (fun e _ => v82_at x0 x1 x2 x3 x4 x5 hr e k)

/-- Entry (i, k) of the reference's result is the sum of the messages of the edges received by node i. -/
theorem ref_result (m : (ℓ : Loc nD τ sig) → Buf (Elt Ideal) ℓ) (c : Dev nD)
    (hr : Cert.Spec.InRange (m ((c : Thread nD τ).loc main_arg5))) (i : Fin 100000) (k : Fin 2) :
    Cert.ReferenceIdeal.Value.res_main_v85 (F := Ideal) m c (ix2 i k)
      = Cert.Spec.resultAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) i k := by
  rw [val_main_v85_eq]
  exact v85_at _ _ _ _ _ _ hr i k

end Cert.ReferenceIdeal.RefValue

end
-- ==== Proof.PreRange.lean ====
/-
  The added precondition, read back: when the printed predicate holds, every entry of the edge list is a node number.
-/
import proofs.«428443_j28338194219042_3_alg».proof.Pre_finite_inputs
import proofs.«428443_j28338194219042_3_alg».proof.Proof.Spec
import Idealize.ShloMosaic.Lib.StableHlo.Predicate
import Idealize.ShloMosaic.Lib.ReduceAll

noncomputable section

namespace Cert.PreRange

open Idealize.ShloMosaic Idealize.ShloMosaic.ValueIdx Cert.Pre_finite_inputs

/-- The predicate's last conjunct says 0 ≤ edge[r, e] < 100000 for every entry. -/
theorem inRange_of_pre {F : FTy → Type} [FloatOps F] [Cert.Pre_finite_inputs.Facts]
    (a0 a1 : FVec F S100000x2 .f32) (a2 : FVec F S16x3 .f32) (a3 : FVec F S100000x1 .f32) (a4 : IVec S100000 32) (a5 : IVec S2x6400000 32)
    (h : Cert.Pre_finite_inputs.fn (F := F) a0 a1 a2 a3 a4 a5 = fun _ => 1#1) : Cert.Spec.InRange a5 := by
  -- the rank-0 shape has exactly one index
  haveI : Subsingleton S_.Idx := ⟨fun a b => funext fun d => d.elim0⟩
  have h0 := congrFun h ValueIdx.ix0
  dsimp only [fn, fn_part1] at h0
  -- the scalar conjunction: keep its last conjunct, the reduction over the edge list
  have h1 := (IntOp.andi_eq_one.1 h0).2
  intro r e
  -- a reduction by "and" over all axes that is 1 had a 1 at every entry
  have h2 := Host.reduce_andi_all _ _ _ _ _ h1 (ix2 r e)
  -- at the entry: the two signed compares against the broadcast constants
  obtain ⟨hge, hlt⟩ := IntOp.andi_eq_one.1 h2
  have e0 : (0#32 : BitVec 32).toInt = 0 := by decide
  have e1 : (100000#32 : BitVec 32).toInt = 100000 := by decide
  have hge' := IntOp.cmpi_sge.1 hge
  have hlt' := IntOp.cmpi_slt.1 hlt
  change (0#32 : BitVec 32).toInt ≤ (a5 (ix2 r e)).toInt at hge'
  change (a5 (ix2 r e)).toInt < (100000#32 : BitVec 32).toInt at hlt'
  rw [e0] at hge'
  rw [e1] at hlt'
  exact ⟨hge', hlt'⟩

end Cert.PreRange

end
-- ==== Proof.lean ====
/-
  One step of message passing on a graph, computed block by block by a kernel's program, against its plain reference,
  over the extended reals.

  Both programs compute, for every node i and plane component k, the sum over the edges received by i of the edge's
  message (Proof/Spec.lean).  The reference gathers the six per-edge quantities, computes the messages and accumulates
  them at the receiver list.  The kernel's program first lays the per-node features out as two tables, gathers one column
  of each per edge (after padding the edge list to 49 blocks of 131072 with the pair (0, 0)), computes the messages in
  one region block by block, and accumulates each component at the receiver list padded with the number 100000, which is
  no node, into one slot more than there are nodes; that slot is cut off.

  The two agree once every entry of the edge list is a node number (the precondition's last conjunct): then no index is
  clamped or counted from the end on either side, and the padding contributes nothing.

  * the frames of the two kernel programs: Proof/FrameK.lean, Proof/FrameKI.lean;
  * the reference's frame: its run with the result dropped;
  * the idealized kernel's result: Proof/KValue.lean (over Proof/KPayload.lean, Proof/KPrefix.lean, Proof/KTail.lean);
  * the reference's result: Proof/RefValue.lean;
  * the precondition read back: Proof/PreRange.lean.
-/
import proofs.«428443_j28338194219042_3_alg».proof.Defs
import proofs.«428443_j28338194219042_3_alg».proof.Proof.Gen.Kernel
import proofs.«428443_j28338194219042_3_alg».proof.Proof.Gen.KernelIdeal
import proofs.«428443_j28338194219042_3_alg».proof.Proof.Gen.ReferenceIdeal
import proofs.«428443_j28338194219042_3_alg».proof.Proof.Gen.Pre_finite_inputs
import proofs.«428443_j28338194219042_3_alg».proof.Proof.Gen.ReferenceIdeal.Run
import proofs.«428443_j28338194219042_3_alg».proof.Proof.FrameK
import proofs.«428443_j28338194219042_3_alg».proof.Proof.FrameKI
import proofs.«428443_j28338194219042_3_alg».proof.Proof.KValue
import proofs.«428443_j28338194219042_3_alg».proof.Proof.RefValue
import proofs.«428443_j28338194219042_3_alg».proof.Proof.PreRange
import proofs.«428443_j28338194219042_3_alg».proof.Proof.Spec
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the specification's array: the kernel's by
    Proof/KValue.lean, the reference's by Proof/RefValue.lean, each needing only that the edge list holds node numbers. -/
theorem algebraic : Cert.algebraic_KernelIdeal_ReferenceIdeal := by
  intro m ρ m' ρ' hpre hagree
  have hr : ∀ c : Dev Cert.KernelIdeal.nD, Cert.Spec.InRange (m ((c.tc : Thread Cert.KernelIdeal.nD Cert.KernelIdeal.τ).loc Cert.KernelIdeal.main_arg5)) :=
    fun c => Cert.PreRange.inRange_of_pre _ _ _ _ _ _ (hpre c)
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KValue.run m ρ hr, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  funext y
  obtain ⟨i, k, rfl⟩ : ∃ (i : Fin 100000) (k : Fin 2), y = ix2 i k := ⟨y 0, y 1, eq_ix2 y⟩
  rw [Cert.ReferenceIdeal.RefValue.ref_result m' c (by rw [a5]; exact hr c) i k, a0, a1, a2, a3, a4, a5]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
